-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_arg12 : FVec F S128x256 .f32) (main_arg13 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S256x256 .f32) (main_arg11 : FVec F S256 .f32) (main_arg12 : FVec F S128x256 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S256x256 .f32) (main_arg11 : FVec F S256 .f32) (main_arg12 : FVec F S128x256 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S256x256 .f32) (main_arg11 : FVec F S256 .f32) (main_arg12 : FVec F S128x256 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100352x128 : Shape := ⟨2, ![100352, 128]⟩
abbrev S256x128 : Shape := ⟨2, ![256, 128]⟩
abbrev S1x128 : Shape := ⟨2, ![1, 128]⟩
abbrev S1x256 : Shape := ⟨2, ![1, 256]⟩
abbrev S1024x128 : Shape := ⟨2, ![1024, 128]⟩
abbrev S1024 : Shape := ⟨1, ![1024]⟩
abbrev S1024x1 : Shape := ⟨2, ![1024, 1]⟩
abbrev S1024x256 : Shape := ⟨2, ![1024, 256]⟩

abbrev nBuf : Space → Nat
  | .hbm => 67
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256x256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S_, .i32⟩
  | .hbm, ⟨45, _⟩ => ⟨S_, .f32⟩
  | .hbm, ⟨46, _⟩ => ⟨S100352x128, .f32⟩
  | .hbm, ⟨47, _⟩ => ⟨S_, .i32⟩
  | .hbm, ⟨48, _⟩ => ⟨S_, .f32⟩
  | .hbm, ⟨49, _⟩ => ⟨S100352x128, .f32⟩
  | .hbm, ⟨50, _⟩ => ⟨S_, .i32⟩
  | .hbm, ⟨51, _⟩ => ⟨S_, .f32⟩
  | .hbm, ⟨52, _⟩ => ⟨S100352x128, .f32⟩
  | .hbm, ⟨53, _⟩ => ⟨S128x128, .f32⟩
  | .hbm, ⟨54, _⟩ => ⟨S128x128, .f32⟩
  | .hbm, ⟨55, _⟩ => ⟨S256x256, .f32⟩
  | .hbm, ⟨56, _⟩ => ⟨S256x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x256, .f32⟩
  | .hbm, ⟨64, _⟩ => ⟨S1x128, .f32⟩
  | .hbm, ⟨65, _⟩ => ⟨S100352x128, .f32⟩
  | .hbm, ⟨66, _⟩ => ⟨S100000x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S256x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_call0_v0 : Ref sig .tc := ⟨.hbm, 45, rfl⟩
abbrev main_v24 : Ref sig .tc := ⟨.hbm, 46, rfl⟩
abbrev main_c_5 : Ref sig .tc := ⟨.hbm, 47, rfl⟩
abbrev main_call1_v0 : Ref sig .tc := ⟨.hbm, 48, rfl⟩
abbrev main_v25 : Ref sig .tc := ⟨.hbm, 49, rfl⟩
abbrev main_c_6 : Ref sig .tc := ⟨.hbm, 50, rfl⟩
abbrev main_call2_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  pads_S100000x128_S100352x128_03520_000 : S100000x128.Pads (![0, 0] : Fin 2 → Nat) ![352, 0] ![0, 0] S100352x128
  h_S_ : 0 < S_.numel
  transposes_S128x128_S128x128_1_0 : S128x128.Transposes [1, 0] S128x128
  transposes_S256x256_S256x256_1_0 : S256x256.Transposes [1, 0] S256x256
  transposes_S128x256_S256x128_1_0 : S128x256.Transposes [1, 0] S256x128
  shapeCasts_S128_S1x128 : S128.ShapeCasts S1x128
  shapeCasts_S256_S1x256 : S256.ShapeCasts S1x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  concatenates_S1024x128_S1024x128_S1024x256_d1 : Shape.Concatenates [S1024x128, S1024x128] S1024x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S100352x128_S100000x128_0_0 : S100352x128.Slices ![0, 0] S100000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1024x128_S128x128_S1024x128_1_0_0_1_n_n_wf : DotDims.WF S1024x128 S128x128 S1024x128 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S100352x128.size a
  hwx0_0 : ∀ i : grid0.Coords, EltTy.bits .f32 = 32 ∨ (Rect.block (s := S100352x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S100352x128.size a
  hwx0_1 : ∀ i : grid0.Coords, EltTy.bits .f32 = 32 ∨ (Rect.block (s := S100352x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S100352x128.size a
  hwx0_2 : ∀ i : grid0.Coords, EltTy.bits .f32 = 32 ∨ (Rect.block (s := S100352x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .f32 = 32 ∨ (Rect.block (s := S256x128) S256x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x128.size a ≤ S100352x128.size a
  hwx0_15 : ∀ i : grid0.Coords, EltTy.bits .f32 = 32 ∨ (Rect.block (s := S100352x128) S1024x128.size (cc0_transform_15 i) (hinb0_15 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v24) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v38) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v39) S1024x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S256x128 : Shape := ⟨2, ![256, 128]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S256x256, .f32⟩
  | 11 => ⟨S256, .f32⟩
  | 12 => ⟨S128x256, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S100000x128, .f32⟩
  | 32 => ⟨S128x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000, .f32⟩
  | 39 => ⟨S100000x1, .f32⟩
  | 40 => ⟨S_, .f32⟩
  | 41 => ⟨S100000x1, .f32⟩
  | 42 => ⟨S100000x1, .f32⟩
  | 43 => ⟨S100000x128, .f32⟩
  | 44 => ⟨S100000x128, .f32⟩
  | 45 => ⟨S100000x128, .f32⟩
  | 46 => ⟨S_, .f32⟩
  | 47 => ⟨S100000, .f32⟩
  | 48 => ⟨S100000x1, .f32⟩
  | 49 => ⟨S_, .f32⟩
  | 50 => ⟨S100000x1, .f32⟩
  | 51 => ⟨S100000x1, .f32⟩
  | 52 => ⟨S100000x128, .f32⟩
  | 53 => ⟨S100000x128, .f32⟩
  | 54 => ⟨S_, .f32⟩
  | 55 => ⟨S100000x1, .f32⟩
  | 56 => ⟨S100000x1, .f32⟩
  | 57 => ⟨S100000x1, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x128, .f32⟩
  | 84 => ⟨S128x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000, .f32⟩
  | 91 => ⟨S100000x1, .f32⟩
  | 92 => ⟨S_, .f32⟩
  | 93 => ⟨S100000x1, .f32⟩
  | 94 => ⟨S100000x1, .f32⟩
  | 95 => ⟨S100000x128, .f32⟩
  | 96 => ⟨S100000x128, .f32⟩
  | 97 => ⟨S100000x128, .f32⟩
  | 98 => ⟨S_, .f32⟩
  | 99 => ⟨S100000, .f32⟩
  | 100 => ⟨S100000x1, .f32⟩
  | 101 => ⟨S_, .f32⟩
  | 102 => ⟨S100000x1, .f32⟩
  | 103 => ⟨S100000x1, .f32⟩
  | 104 => ⟨S100000x128, .f32⟩
  | 105 => ⟨S100000x128, .f32⟩
  | 106 => ⟨S_, .f32⟩
  | 107 => ⟨S100000x1, .f32⟩
  | 108 => ⟨S100000x1, .f32⟩
  | 109 => ⟨S100000x1, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S100000x256, .f32⟩
  | 123 => ⟨S256x256, .f32⟩
  | 124 => ⟨S100000x256, .f32⟩
  | 125 => ⟨S1x256, .f32⟩
  | 126 => ⟨S100000x256, .f32⟩
  | 127 => ⟨S100000x256, .f32⟩
  | _ => ⟨S100000x128, .f32⟩

abbrev hbmTy0_1 (i : Nat) : BufTy := match i % 128 with
  | 0 => ⟨S_, .f32⟩
  | 1 => ⟨S100000x256, .f32⟩
  | 2 => ⟨S100000x256, .f32⟩
  | 3 => ⟨S256x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_call2_cst : Ref sig .tc := ⟨.hbm, 128, rfl⟩
abbrev main_call2_v0 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call3_cst : Ref sig .tc := ⟨.hbm, 136, rfl⟩
abbrev main_call3_v0 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S128x256_S256x128_1_0 : S128x256.Transposes [1, 0] S256x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.RowMath.lean ====
/-
  One node's update, as plain arithmetic on extended reals.

  A node carries a feature row `x` of 128 entries and two aggregated rows `a₁`, `a₂` (the sums of its neighbours'
  rows along the edges, in either direction). Its new row is computed from these three rows and the weights alone — no other
  node enters:

    h₁ = x + a₁,  h₂ = x + a₂
    rᵢ = hᵢ + max(LN_{gᵢ,βᵢ}(hᵢ · Wᵢᵀ + bᵢ), 0)                              (two residual branches)
    out = max(max([r₁ ‖ r₂] · Wl₁ᵀ + bl₁, 0) · Wl₂ᵀ + bl₂, 0)                 (the merge network)

  where `LN_{g,β}(v) = (v − mean v) · rsqrt(mean((v − mean v)²) + ε) · g + β` over the 128 entries of a row and
  `mean v = (Σ v) / 128`. A weight matrix enters already transposed: `wT k n` is the weight from input feature `k` to
  output feature `n`. Everything is a finite sum or an entrywise operation on one row, so the result at a node is a
  function of that node's three rows; this is what lets a computation on a block of nodes and a computation on all nodes
  agree row by row.
-/
import Idealize.ShloMosaic.PureOps.Ideal
import Idealize.ShloMosaic.Lib.ValueIdx

noncomputable section

namespace Cert.RowMath

open Idealize.ShloMosaic
open scoped BigOperators

/-- The divisor of a mean over 128 entries: the float `128.0`. -/
def c128 : EReal := Ideal.ofBits .f32 0x43000000#32

/-- The variance offset ε of the normalisation: the float nearest `1e-5`. -/
def eps : EReal := Ideal.ofBits .f32 0x3727C5AC#32

/-- A row through an affine layer: entry `n` is `Σₖ h k · wT k n + b n`. -/
def affine {K N : ℕ} (wT : Fin K → Fin N → EReal) (b : Fin N → EReal) (h : Fin K → EReal) (n : Fin N) : EReal :=
  (∑ k : Fin K, h k * wT k n) + b n

/-- The mean of a row of 128 entries. -/
def mean (v : Fin 128 → EReal) : EReal := Ideal.div (∑ j : Fin 128, v j) c128

/-- A row centred and scaled to unit variance: `(v − mean v) · rsqrt(mean((v − mean v)²) + ε)`. -/
def normalize (v : Fin 128 → EReal) (q : Fin 128) : EReal :=
  (v q - mean v) * Ideal.rsqrt (mean (fun j => (v j - mean v) * (v j - mean v)) + eps)

/-- One residual branch: `h + max(normalize(h · Wᵀ + b) · g + β, 0)`. -/
def branch (wT : Fin 128 → Fin 128 → EReal) (b g bt : Fin 128 → EReal) (h : Fin 128 → EReal) (q : Fin 128) : EReal :=
  h q + max (normalize (affine wT b h) q * g q + bt q) 0

/-- Two rows of 128 entries side by side as one row of 256. -/
def cat (u v : Fin 128 → EReal) (r : Fin 256) : EReal :=
  if h : r.val < 128 then u ⟨r.val, h⟩ else v ⟨r.val - 128, by have := r.isLt; omega⟩

/-- The node's new row from its three rows and the weights. -/
def out (x a1 a2 : Fin 128 → EReal)
    (w1T : Fin 128 → Fin 128 → EReal) (b1 g1 bt1 : Fin 128 → EReal)
    (w2T : Fin 128 → Fin 128 → EReal) (b2 g2 bt2 : Fin 128 → EReal)
    (wl1T : Fin 256 → Fin 256 → EReal) (bl1 : Fin 256 → EReal)
    (wl2T : Fin 256 → Fin 128 → EReal) (bl2 : Fin 128 → EReal) (q : Fin 128) : EReal :=
  max (affine wl2T bl2
    (fun s => max (affine wl1T bl1
      (cat (branch w1T b1 g1 bt1 fun k => x k + a1 k) (branch w2T b2 g2 bt2 fun k => x k + a2 k)) s) 0) q) 0

/-- Every node updated at once: the array whose row `p` is `out` of row `p` of the features and of the two aggregates. The
    weight matrices are given as stored, `W n k` from input feature `k` to output feature `n`, and read transposed. -/
def nodes (X A1 A2 : (⟨2, ![100000, 128]⟩ : Shape).Idx → EReal)
    (W1 : (⟨2, ![128, 128]⟩ : Shape).Idx → EReal) (b1 g1 bt1 : (⟨1, ![128]⟩ : Shape).Idx → EReal)
    (W2 : (⟨2, ![128, 128]⟩ : Shape).Idx → EReal) (b2 g2 bt2 : (⟨1, ![128]⟩ : Shape).Idx → EReal)
    (Wl1 : (⟨2, ![256, 256]⟩ : Shape).Idx → EReal) (bl1 : (⟨1, ![256]⟩ : Shape).Idx → EReal)
    (Wl2 : (⟨2, ![128, 256]⟩ : Shape).Idx → EReal) (bl2 : (⟨1, ![128]⟩ : Shape).Idx → EReal) :
    (⟨2, ![100000, 128]⟩ : Shape).Idx → EReal := fun i =>
  out (fun k => X (ValueIdx.ix2 (i 0) k)) (fun k => A1 (ValueIdx.ix2 (i 0) k)) (fun k => A2 (ValueIdx.ix2 (i 0) k))
    (fun k n => W1 (ValueIdx.ix2 n k)) (fun n => b1 (ValueIdx.ix1 n)) (fun n => g1 (ValueIdx.ix1 n)) (fun n => bt1 (ValueIdx.ix1 n))
    (fun k n => W2 (ValueIdx.ix2 n k)) (fun n => b2 (ValueIdx.ix1 n)) (fun n => g2 (ValueIdx.ix1 n)) (fun n => bt2 (ValueIdx.ix1 n))
    (fun k n => Wl1 (ValueIdx.ix2 n k)) (fun n => bl1 (ValueIdx.ix1 n))
    (fun k n => Wl2 (ValueIdx.ix2 n k)) (fun n => bl2 (ValueIdx.ix1 n)) (i 1)

end Cert.RowMath

end
-- ==== Proof.BlockRow.lean ====
/-
  The fused body on one block of 1024 nodes, read at an entry.

  The body loads the block's three [1024, 128] operands (features and the two aggregates) and the twelve weight operands whole,
  and stores one [1024, 128] value. Entry (p, q) of that value is `RowMath.out` of row `p` of the three block operands: every
  operation of the body is entrywise, a sum along a row, a product with a weight matrix (a sum over the row's entries), or a
  copy of a row's scalar along the row, so nothing crosses rows.
-/
import proofs.«150959_j60120952209623_1_alg».proof.Proof.Gen.KernelIdeal.Skeleton
import proofs.«150959_j60120952209623_1_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockRow

open Cert.KernelIdeal Cert.KernelIdeal.Gen Idealize.ShloMosaic Idealize.ShloMosaic.ValueIdx
open scoped BigOperators

/-! ### The product with a [128, 128] weight matrix: entry (p, q) is the sum over k of row p's entry k times the weight (k, q) -/

theorem lhs_w_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_w_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_w_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_w_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- Into the zero accumulator the product at (p, q) is `∑ k, a (p, k) * w (k, q)`. -/
theorem matmul_w_apply (a : FVec Ideal S1024x128 .bf16) (w : FVec Ideal S128x128 .bf16) (p : Fin 1024) (q : Fin 128) :
    matmul dot_S1024x128_S128x128_S1024x128_1_0_0_1_n_n none a w (constant (F := Ideal) S1024x128 .f32 0x00000000#32) (ix2 p q)
      = ∑ k : Fin 128, a (ix2 p k) * w (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs_w_0 _ _
    | ⟨1, _⟩ => exact (lhs_w_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs_w_0 _ _).trans hk
    | ⟨1, _⟩ => exact rhs_w_1 _ _)
  rw [el, er]

/-! ### The product with a [256, 256] weight matrix: entry (p, q) is the sum over k of row p's entry k times the weight (k, q) -/

theorem lhs_l1_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_l1_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_l1_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_l1_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Into the zero accumulator the product at (p, q) is `∑ k, a (p, k) * w (k, q)`. -/
theorem matmul_l1_apply (a : FVec Ideal S1024x256 .bf16) (w : FVec Ideal S256x256 .bf16) (p : Fin 1024) (q : Fin 256) :
    matmul dot_S1024x256_S256x256_S1024x256_1_0_0_1_n_n none a w (constant (F := Ideal) S1024x256 .f32 0x00000000#32) (ix2 p q)
      = ∑ k : Fin 256, a (ix2 p k) * w (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhs_l1_0 _ _
    | ⟨1, _⟩ => exact (lhs_l1_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhs_l1_0 _ _).trans hk
    | ⟨1, _⟩ => exact rhs_l1_1 _ _)
  rw [el, er]

/-! ### The product with a [256, 128] weight matrix: entry (p, q) is the sum over k of row p's entry k times the weight (k, q) -/

theorem lhs_l2_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_l2_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_l2_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_l2_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- Into the zero accumulator the product at (p, q) is `∑ k, a (p, k) * w (k, q)`. -/
theorem matmul_l2_apply (a : FVec Ideal S1024x256 .bf16) (w : FVec Ideal S256x128 .bf16) (p : Fin 1024) (q : Fin 128) :
    matmul dot_S1024x256_S256x128_S1024x128_1_0_0_1_n_n none a w (constant (F := Ideal) S1024x128 .f32 0x00000000#32) (ix2 p q)
      = ∑ k : Fin 256, a (ix2 p k) * w (ix2 k q) := by
  simp only [matmul]
  rw [Ideal.matmul_constant_zero_apply, ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 p q) ((contrEquiv1 dot_S1024x256_S256x128_S1024x128_1_0_0_1_n_n 256 rfl rfl).symm k) = ix2 p k := funext fun a => Fin.ext (by
    match a with
    | ⟨0, _⟩ => exact lhs_l2_0 _ _
    | ⟨1, _⟩ => exact (lhs_l2_1 _ _).trans hk)
  have er : dot_S1024x256_S256x128_S1024x128_1_0_0_1_n_n.rhsIdx (ix2 p q) ((contrEquiv1 dot_S1024x256_S256x128_S1024x128_1_0_0_1_n_n 256 rfl rfl).symm k) = ix2 k q := funext fun a => Fin.ext (by
    match a with
    | ⟨0, _⟩ => exact (rhs_l2_0 _ _).trans hk
    | ⟨1, _⟩ => exact rhs_l2_1 _ _)
  rw [el, er]

/-! ### Sums along a row, a row's scalar as a column, and a column copied along the rows -/

/-- The sum of a [1024, 128] value over its second axis, at row p: the sum of that row's 128 entries. -/
theorem rowSum_apply (v : FVec Ideal S1024x128 .f32) (p : Fin 1024) :
    multiReduction (F := Ideal) .add [1] S1024 v 0x00000000#32 reduces_S1024x128_S1024 (.inl rfl) rfl (ix1 p)
      = ∑ j : Fin 128, v (ix2 p j) := by
  refine (Ideal.multiReduction_add_single v 0x00000000#32 reduces_S1024x128_S1024 (.inl rfl) rfl (ix1 p)).trans ?_
  refine Finset.sum_congr rfl fun k _ => ?_
  exact congrArg v (funext fun a => Fin.ext (by match a with | ⟨0, _⟩ => rfl | ⟨1, _⟩ => rfl))

/-- A [1024] value as a [1024, 1] column: entry (p, u) is entry p. -/
theorem column_apply {α : Type} (r : S1024.Idx → α) (h : S1024.ShapeCasts S1024x1) (p : Fin 1024) (u : Fin 1) :
    shapeCast S1024x1 r h (ix2 p u) = r (ix1 p) :=
  shapeCast_apply r h _ _ (by
    have hu : u.val = 0 := by omega
    rw [Shape.rowMajor_val_one, Shape.rowMajor_val_two]
    show p.val = p.val * 1 + u.val
    rw [hu, Nat.mul_one, Nat.add_zero])

/-- A [1024, 1] column copied along 128 columns: entry (p, q) is the column's entry (p, 0). -/
theorem alongRow_apply {α : Type} (c : S1024x1.Idx → α) (h : S1024x1.Broadcasts S1024x128) (p : Fin 1024) (q : Fin 128) :
    broadcastTo S1024x128 c h (ix2 p q) = c (ix2 p (0 : Fin 1)) := by
  refine broadcastTo_apply c h (ix2 p q) (ix2 p (0 : Fin 1)) fun ax => ?_
  match ax with
  | ⟨0, _⟩ => rfl
  | ⟨1, _⟩ => rfl

/-- The reciprocal square root of a value, at an index. -/
theorem rsqrt_apply {s : Shape} (c : FVec Ideal s .f32) (i : s.Idx) : rsqrt c i = Ideal.rsqrt (c i) := rfl

/-- A float scalar given by its word is the extended real the word encodes. -/
theorem scalar_word (b : BitVec 32) : Scalar.ofBits (F := Ideal) .f32 b = Ideal.ofBits .f32 b := rfl

/-- Two [1024, 128] values side by side, at (p, r): row p of the first where r < 128, else row p of the second at r - 128. -/
theorem sideBySide_apply (u v : FVec Ideal S1024x128 .f32) (p : Fin 1024) (r : Fin 256) :
    concatenate S1024x256 1 [⟨S1024x128, u⟩, ⟨S1024x128, v⟩] concatenates_S1024x128_S1024x128_S1024x256_d1 (ix2 p r)
      = Cert.RowMath.cat (fun k => u (ix2 p k)) (fun k => v (ix2 p k)) r := by
  unfold Cert.RowMath.cat
  by_cases h : r.val < 128
  · rw [dif_pos h]
    exact concatenate_pair_apply_left 1 u v concatenates_S1024x128_S1024x128_S1024x256_d1 (ix2 p r) rfl (ix2 p ⟨r.val, h⟩)
      (fun b => by match b with | ⟨0, _⟩ => rfl | ⟨1, _⟩ => rfl)
  · rw [dif_neg h]
    exact concatenate_pair_apply_right 1 u v concatenates_S1024x128_S1024x128_S1024x256_d1 (ix2 p r) rfl rfl
      (ix2 p ⟨r.val - 128, by have := r.isLt; omega⟩)
      (fun b hb => by
        match b with
        | ⟨0, _⟩ => rfl
        | ⟨1, _⟩ => exact absurd rfl hb)
      (by show r.val - 128 + 128 = r.val; omega)

/-! ### The affine layer and the normalisation of a block, row by row

Both residual branches send a [1024, 128] block through the same two stages with different weights, so each stage is named
once over a variable block and read at an entry. -/

/-- A block through an affine layer with a [128, 128] weight matrix: `h · wT + b`, the bias row copied to every row. -/
def affineBlock (h : FVec Ideal S1024x128 .f32) (w : Vec Ideal S128x128 .f32) (b : Vec Ideal S1x128 .f32) : FVec Ideal S1024x128 .f32 :=
  addf
    (matmul dot_S1024x128_S128x128_S1024x128_1_0_0_1_n_n none (truncf .bf16 h bitsLt_bf16_f32)
      (truncf .bf16 (shapeCast S128x128 w shapeCasts_S128x128_S128x128 : FVec Ideal S128x128 .f32) bitsLt_bf16_f32)
      (constant (F := Ideal) S1024x128 .f32 0x00000000#32))
    (broadcastTo S1024x128 (shapeCast S1x128 b shapeCasts_S1x128_S1x128 : FVec Ideal S1x128 .f32) broadcasts_S1x128_S1024x128)

/-- Row p of the affine layer's result is the affine layer applied to row p. -/
theorem affineBlock_apply (h : FVec Ideal S1024x128 .f32) (w : Vec Ideal S128x128 .f32) (b : Vec Ideal S1x128 .f32)
    (p : Fin 1024) (q : Fin 128) :
    affineBlock h w b (ix2 p q)
      = Cert.RowMath.affine (fun k n => w (ix2 k n)) (fun n => b (ix2 (0 : Fin 1) n)) (fun k => h (ix2 p k)) q := by
  unfold affineBlock Cert.RowMath.affine
  rw [addf_apply, matmul_w_apply, broadcastTo_1b_ab_apply]
  simp only [truncf_apply, shapeCast_self]

/-- Each row's mean as a column: the row's sum over its 128 entries, divided by 128. -/
def rowMean (v : FVec Ideal S1024x128 .f32) : FVec Ideal S1024x1 .f32 :=
  divf
    (shapeCast S1024x1 (multiReduction (F := Ideal) .add [1] S1024 v 0x00000000#32 reduces_S1024x128_S1024 (.inl rfl) rfl)
      shapeCasts_S1024_S1024x1 : FVec Ideal S1024x1 .f32)
    (broadcast S1024x1 (Scalar.ofBits (F := Ideal) .f32 0x43000000#32))

theorem rowMean_apply (v : FVec Ideal S1024x128 .f32) (p : Fin 1024) (u : Fin 1) :
    rowMean v (ix2 p u) = Cert.RowMath.mean (fun j => v (ix2 p j)) := by
  unfold rowMean Cert.RowMath.mean Cert.RowMath.c128
  rw [divf_apply, column_apply, rowSum_apply, broadcast_apply, scalar_word]

/-- A block with each row's mean subtracted from the row's entries. -/
def centred (v : FVec Ideal S1024x128 .f32) : FVec Ideal S1024x128 .f32 :=
  subf v (broadcastTo S1024x128 (rowMean v) broadcasts_S1024x1_S1024x128)

theorem centred_apply (v : FVec Ideal S1024x128 .f32) (p : Fin 1024) (q : Fin 128) :
    centred v (ix2 p q) = v (ix2 p q) - Cert.RowMath.mean (fun j => v (ix2 p j)) := by
  unfold centred
  rw [subf_apply, alongRow_apply, rowMean_apply]

/-- A block normalised row by row: the centred row times the reciprocal square root of (the mean square of the centred
    row plus ε). -/
def normBlock (v : FVec Ideal S1024x128 .f32) : FVec Ideal S1024x128 .f32 :=
  mulf (centred v)
    (broadcastTo S1024x128
      (rsqrt (addf (rowMean (mulf (centred v) (centred v))) (broadcast S1024x1 (Scalar.ofBits (F := Ideal) .f32 0x3727C5AC#32))))
      broadcasts_S1024x1_S1024x128)

/-- Row p of the normalised block is the normalisation of row p. -/
theorem normBlock_apply (v : FVec Ideal S1024x128 .f32) (p : Fin 1024) (q : Fin 128) :
    normBlock v (ix2 p q) = Cert.RowMath.normalize (fun j => v (ix2 p j)) q := by
  unfold normBlock Cert.RowMath.normalize Cert.RowMath.eps
  rw [mulf_apply, centred_apply, alongRow_apply, rsqrt_apply, addf_apply, rowMean_apply, broadcast_apply, scalar_word]
  simp only [mulf_apply, centred_apply]

/-! ### The body's values, one by one -/

/-- The first branch's input `h₁ = x + a₁`. -/
theorem pay4_apply (x0 x1 : Vec Ideal S1024x128 .f32) (p : Fin 1024) (q : Fin 128) :
    k0_pay4 (F := Ideal) x0 x1 (ix2 p q) = x0 (ix2 p q) + x1 (ix2 p q) := by
  unfold k0_pay4 k0_pay2
  simp only [shapeCast_self, addf_apply]

/-- The first branch's shift row, as loaded. -/
theorem pay5_eq (x6 : Vec Ideal S1x128 .f32) : k0_pay5 (F := Ideal) x6 = x6 := by
  unfold k0_pay5
  exact shapeCast_self _ _

/-- The first branch's normalised affine image is the two shared stages applied to `h₁`. -/
theorem pay6_eq (x0 x1 : Vec Ideal S1024x128 .f32) (x3 : Vec Ideal S128x128 .f32) (x4 : Vec Ideal S1x128 .f32) :
    k0_pay6 (F := Ideal) x0 x1 x3 x4 = normBlock (affineBlock (k0_pay4 x0 x1) x3 x4) := rfl

theorem pay6_apply (x0 x1 : Vec Ideal S1024x128 .f32) (x3 : Vec Ideal S128x128 .f32) (x4 : Vec Ideal S1x128 .f32)
    (p : Fin 1024) (q : Fin 128) :
    k0_pay6 (F := Ideal) x0 x1 x3 x4 (ix2 p q)
      = Cert.RowMath.normalize (Cert.RowMath.affine (fun k n => x3 (ix2 k n)) (fun n => x4 (ix2 (0 : Fin 1) n))
          (fun k => x0 (ix2 p k) + x1 (ix2 p k))) q := by
  rw [pay6_eq, normBlock_apply]
  refine congrArg (fun f => Cert.RowMath.normalize f q) (funext fun j => ?_)
  rw [affineBlock_apply]
  exact congrArg (fun f => Cert.RowMath.affine _ _ f j) (funext fun k => pay4_apply x0 x1 p k)

/-- The first branch's gain row copied to every row. -/
theorem pay7_apply (x5 : Vec Ideal S1x128 .f32) (p : Fin 1024) (q : Fin 128) :
    k0_pay7 (F := Ideal) x5 (ix2 p q) = x5 (ix2 (0 : Fin 1) q) := by
  unfold k0_pay7
  simp only [shapeCast_self, broadcastTo_1b_ab_apply]

/-- The residual step: `h + max(n · g + β, 0)`, over variable blocks. -/
theorem pay8_apply (v6 : FVec Ideal S1024x128 .f32) (v19 : FVec Ideal S1x128 .f32) (v37 v38 : FVec Ideal S1024x128 .f32)
    (p : Fin 1024) (q : Fin 128) :
    k0_pay8 (F := Ideal) v6 v19 v37 v38 (ix2 p q)
      = v6 (ix2 p q) + max (v37 (ix2 p q) * v38 (ix2 p q) + v19 (ix2 (0 : Fin 1) q)) 0 := by
  unfold k0_pay8
  simp only [addf_apply, maximumf_apply, mulf_apply, broadcastTo_1b_ab_apply, broadcast_apply, scalar_word, Ideal.ofBits_zero_f32]

/-- Row p of the first branch. -/
theorem branch1_apply (x0 x1 : Vec Ideal S1024x128 .f32) (x3 : Vec Ideal S128x128 .f32) (x4 x5 x6 : Vec Ideal S1x128 .f32)
    (p : Fin 1024) (k : Fin 128) :
    k0_pay8 (F := Ideal) (k0_pay4 x0 x1) (k0_pay5 x6) (k0_pay6 x0 x1 x3 x4) (k0_pay7 x5) (ix2 p k)
      = Cert.RowMath.branch (fun k n => x3 (ix2 k n)) (fun n => x4 (ix2 (0 : Fin 1) n)) (fun n => x5 (ix2 (0 : Fin 1) n))
          (fun n => x6 (ix2 (0 : Fin 1) n)) (fun k => x0 (ix2 p k) + x1 (ix2 p k)) k := by
  rw [pay8_apply, pay4_apply, pay6_apply, pay7_apply, pay5_eq]
  rfl

/-- The second branch's input `h₂ = x + a₂`. -/
theorem pay9_apply (x0 x2 : Vec Ideal S1024x128 .f32) (p : Fin 1024) (q : Fin 128) :
    k0_pay9 (F := Ideal) (k0_pay2 x0) (k0_pay3 x2) (ix2 p q) = x0 (ix2 p q) + x2 (ix2 p q) := by
  unfold k0_pay9 k0_pay2 k0_pay3
  simp only [shapeCast_self, addf_apply]

/-- The second branch before its residual sum: `max(n · g + β, 0)` with `n` the two shared stages applied to `h₂`. -/
theorem pay10_eq (v1 v5 : FVec Ideal S1024x128 .f32) (x7 : Vec Ideal S128x128 .f32) (x8 x9 x10 : Vec Ideal S1x128 .f32) :
    k0_pay10 (F := Ideal) v1 v5 x7 x8 x9 x10
      = maximumf
          (addf
            (mulf (normBlock (affineBlock (k0_pay9 v1 v5) x7 x8))
              (broadcastTo S1024x128 (shapeCast S1x128 x9 shapeCasts_S1x128_S1x128 : FVec Ideal S1x128 .f32) broadcasts_S1x128_S1024x128))
            (broadcastTo S1024x128 (shapeCast S1x128 x10 shapeCasts_S1x128_S1x128 : FVec Ideal S1x128 .f32) broadcasts_S1x128_S1024x128))
          (broadcast S1024x128 (Scalar.ofBits (F := Ideal) .f32 0x00000000#32)) := rfl

/-- Row p of the second branch: the residual sum the last stage forms, `h₂ + max(n · g + β, 0)`. -/
theorem branch2_apply (x0 x2 : Vec Ideal S1024x128 .f32) (x7 : Vec Ideal S128x128 .f32) (x8 x9 x10 : Vec Ideal S1x128 .f32)
    (p : Fin 1024) (k : Fin 128) :
    k0_pay9 (F := Ideal) (k0_pay2 x0) (k0_pay3 x2) (ix2 p k) + k0_pay10 (F := Ideal) (k0_pay2 x0) (k0_pay3 x2) x7 x8 x9 x10 (ix2 p k)
      = Cert.RowMath.branch (fun k n => x7 (ix2 k n)) (fun n => x8 (ix2 (0 : Fin 1) n)) (fun n => x9 (ix2 (0 : Fin 1) n))
          (fun n => x10 (ix2 (0 : Fin 1) n)) (fun k => x0 (ix2 p k) + x2 (ix2 p k)) k := by
  rw [pay10_eq, maximumf_apply, addf_apply, mulf_apply, normBlock_apply, broadcastTo_1b_ab_apply, broadcastTo_1b_ab_apply,
    broadcast_apply, scalar_word, Ideal.ofBits_zero_f32, pay9_apply]
  simp only [shapeCast_self, affineBlock_apply, pay9_apply]
  rfl

/-- The merge network over variable blocks: the two branch rows side by side through two affine layers, each followed by
    a maximum with zero. -/
theorem pay1_apply (v44 v45 v82 : FVec Ideal S1024x128 .f32) (x11 : Vec Ideal S256x256 .f32) (x12 : Vec Ideal S1x256 .f32)
    (x13 : Vec Ideal S256x128 .f32) (x14 : Vec Ideal S1x128 .f32) (p : Fin 1024) (q : Fin 128) :
    k0_pay1 (F := Ideal) v44 v45 v82 x11 x12 x13 x14 (ix2 p q)
      = max (Cert.RowMath.affine (fun k n => x13 (ix2 k n)) (fun n => x14 (ix2 (0 : Fin 1) n))
          (fun s => max (Cert.RowMath.affine (fun k n => x11 (ix2 k n)) (fun n => x12 (ix2 (0 : Fin 1) n))
            (Cert.RowMath.cat (fun k => v44 (ix2 p k)) (fun k => v45 (ix2 p k) + v82 (ix2 p k))) s) 0) q) 0 := by
  unfold k0_pay1 Cert.RowMath.affine
  simp only [maximumf_apply, addf_apply, matmul_l2_apply, matmul_l1_apply, truncf_apply, shapeCast_self, sideBySide_apply,
    broadcastTo_1b_ab_apply, broadcast_apply, scalar_word, Ideal.ofBits_zero_f32]

/-- Entry (p, q) of the value the body stores is the node update of row `p` of the block's operands. -/
theorem payload_apply (x0 x1 x2 : Vec Ideal S1024x128 .f32) (x3 : Vec Ideal S128x128 .f32) (x4 x5 x6 : Vec Ideal S1x128 .f32)
    (x7 : Vec Ideal S128x128 .f32) (x8 x9 x10 : Vec Ideal S1x128 .f32) (x11 : Vec Ideal S256x256 .f32) (x12 : Vec Ideal S1x256 .f32)
    (x13 : Vec Ideal S256x128 .f32) (x14 : Vec Ideal S1x128 .f32) (p : Fin 1024) (q : Fin 128) :
    k0_pay1 (F := Ideal) (k0_pay8 (k0_pay4 x0 x1) (k0_pay5 x6) (k0_pay6 x0 x1 x3 x4) (k0_pay7 x5)) (k0_pay9 (k0_pay2 x0) (k0_pay3 x2))
        (k0_pay10 (k0_pay2 x0) (k0_pay3 x2) x7 x8 x9 x10) x11 x12 x13 x14 (ix2 p q)
      = Cert.RowMath.out (fun k => x0 (ix2 p k)) (fun k => x1 (ix2 p k)) (fun k => x2 (ix2 p k))
          (fun k n => x3 (ix2 k n)) (fun n => x4 (ix2 (0 : Fin 1) n)) (fun n => x5 (ix2 (0 : Fin 1) n)) (fun n => x6 (ix2 (0 : Fin 1) n))
          (fun k n => x7 (ix2 k n)) (fun n => x8 (ix2 (0 : Fin 1) n)) (fun n => x9 (ix2 (0 : Fin 1) n)) (fun n => x10 (ix2 (0 : Fin 1) n))
          (fun k n => x11 (ix2 k n)) (fun n => x12 (ix2 (0 : Fin 1) n))
          (fun k n => x13 (ix2 k n)) (fun n => x14 (ix2 (0 : Fin 1) n)) q := by
  rw [pay1_apply]
  unfold Cert.RowMath.out
  have e1 : (fun k => k0_pay8 (F := Ideal) (k0_pay4 x0 x1) (k0_pay5 x6) (k0_pay6 x0 x1 x3 x4) (k0_pay7 x5) (ix2 p k))
      = Cert.RowMath.branch (fun k n => x3 (ix2 k n)) (fun n => x4 (ix2 (0 : Fin 1) n)) (fun n => x5 (ix2 (0 : Fin 1) n))
          (fun n => x6 (ix2 (0 : Fin 1) n)) (fun k => x0 (ix2 p k) + x1 (ix2 p k)) :=
    funext fun k => branch1_apply x0 x1 x3 x4 x5 x6 p k
  have e2 : (fun k => k0_pay9 (F := Ideal) (k0_pay2 x0) (k0_pay3 x2) (ix2 p k)
        + k0_pay10 (F := Ideal) (k0_pay2 x0) (k0_pay3 x2) x7 x8 x9 x10 (ix2 p k))
      = Cert.RowMath.branch (fun k n => x7 (ix2 k n)) (fun n => x8 (ix2 (0 : Fin 1) n)) (fun n => x9 (ix2 (0 : Fin 1) n))
          (fun n => x10 (ix2 (0 : Fin 1) n)) (fun k => x0 (ix2 p k) + x2 (ix2 p k)) :=
    funext fun k => branch2_apply x0 x2 x7 x8 x9 x10 p k
  rw [e1, e2]

end Cert.KernelIdeal.BlockRow

end
-- ==== Proof.NodeBlocks.lean ====
/-
  From blocks of 1024 nodes to the whole output array.

  The region runs the fused body once per block of 1024 consecutive rows of the three padded [100352, 128] operands (the
  features and the two edge aggregates, each extended by 352 rows); the twelve weight operands are fetched whole at every
  point. Point `t` writes rows 1024·t … 1024·t + 1023 of the output, and the 98 blocks tile the 100352 rows, so after the
  run every output row `r` holds the node update (`RowMath.out`) of row `r` of the padded operands.
-/
import proofs.«150959_j60120952209623_1_alg».proof.Proof.Gen.KernelIdeal.Frame
import proofs.«150959_j60120952209623_1_alg».proof.Proof.BlockRow
import Idealize.ShloMosaic.Lib.StableHlo.Run
import Idealize.ShloMosaic.Lib.KernelVsHost
import Idealize.ShloMosaic.PureOps.Ideal

set_option maxRecDepth 16384

noncomputable section

namespace Cert.KernelIdeal.NodeBlocks

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## Every padded row updated -/

/-- The update of every row of the padded operands: row `r`, entry `q`, from row `r` of the three [100352, 128] operands; the
    weights as the body meets them, transposed matrices and [1, n] rows. -/
def paddedNodes (XP A1P A2P : S100352x128.Idx → EReal)
    (W1T : S128x128.Idx → EReal) (b1 g1 bt1 : S1x128.Idx → EReal)
    (W2T : S128x128.Idx → EReal) (b2 g2 bt2 : S1x128.Idx → EReal)
    (Wl1T : S256x256.Idx → EReal) (bl1 : S1x256.Idx → EReal)
    (Wl2T : S256x128.Idx → EReal) (bl2 : S1x128.Idx → EReal) : S100352x128.Idx → EReal := fun i =>
  Cert.RowMath.out (fun k => XP (ix2 (i 0) k)) (fun k => A1P (ix2 (i 0) k)) (fun k => A2P (ix2 (i 0) k))
    (fun k n => W1T (ix2 k n)) (fun n => b1 (ix2 (0 : Fin 1) n)) (fun n => g1 (ix2 (0 : Fin 1) n)) (fun n => bt1 (ix2 (0 : Fin 1) n))
    (fun k n => W2T (ix2 k n)) (fun n => b2 (ix2 (0 : Fin 1) n)) (fun n => g2 (ix2 (0 : Fin 1) n)) (fun n => bt2 (ix2 (0 : Fin 1) n))
    (fun k n => Wl1T (ix2 k n)) (fun n => bl1 (ix2 (0 : Fin 1) n))
    (fun k n => Wl2T (ix2 k n)) (fun n => bl2 (ix2 (0 : Fin 1) n)) (i 1)

/-- That update of the operands as the region finds them. -/
abbrev entryNodes (c : Dev nD) : S100352x128.Idx → EReal :=
  paddedNodes (V m c main_v24) (V m c main_v25) (V m c main_v26)
    (V m c main_v27) (V m c main_v31) (V m c main_v32) (V m c main_v33)
    (V m c main_v28) (V m c main_v34) (V m c main_v35) (V m c main_v36)
    (V m c main_v29) (V m c main_v37) (V m c main_v30) (V m c main_v38)

/-! ## A point's block -/

theorem hz : (![0, 0] : Fin 2 → Nat) = fun _ => 0 := funext fun a => by fin_cases a <;> rfl

/-- The printed index maps over the grid: the three row-blocked operands and the output sit at block (t, 0); every weight
    operand at block (0, 0). -/
theorem idx_facts : ∀ t : Fin cfg0.N,
    win0_15.index t (0 : Fin 2) = t.val ∧ win0_15.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-- Two node updates agree when their rows, their weights and the entry agree. -/
theorem out_congr {x a1 a2 x' a1' a2' : Fin 128 → EReal}
    {w1T w1T' : Fin 128 → Fin 128 → EReal} {b1 g1 bt1 b1' g1' bt1' : Fin 128 → EReal}
    {w2T w2T' : Fin 128 → Fin 128 → EReal} {b2 g2 bt2 b2' g2' bt2' : Fin 128 → EReal}
    {wl1T wl1T' : Fin 256 → Fin 256 → EReal} {bl1 bl1' : Fin 256 → EReal}
    {wl2T wl2T' : Fin 256 → Fin 128 → EReal} {bl2 bl2' : Fin 128 → EReal} {q q' : Fin 128}
    (hx : x = x') (ha1 : a1 = a1') (ha2 : a2 = a2')
    (hw1 : w1T = w1T') (hb1 : b1 = b1') (hg1 : g1 = g1') (hbt1 : bt1 = bt1')
    (hw2 : w2T = w2T') (hb2 : b2 = b2') (hg2 : g2 = g2') (hbt2 : bt2 = bt2')
    (hwl1 : wl1T = wl1T') (hbl1 : bl1 = bl1') (hwl2 : wl2T = wl2T') (hbl2 : bl2 = bl2') (hq : q = q') :
    Cert.RowMath.out x a1 a2 w1T b1 g1 bt1 w2T b2 g2 bt2 wl1T bl1 wl2T bl2 q
      = Cert.RowMath.out x' a1' a2' w1T' b1' g1' bt1' w2T' b2' g2' bt2' wl1T' bl1' wl2T' bl2' q' := by
  subst hx ha1 ha2 hw1 hb1 hg1 hbt1 hw2 hb2 hg2 hbt2 hwl1 hbl1 hwl2 hbl2 hq; rfl

set_option maxHeartbeats 8000000 in
/-- WHAT POINT `t` WRITES BACK is block `t` of the update of the padded operands as the region finds them: entry (p, q) of
    the stored value is the update of row `p` of the three operand blocks, which is row 1024·t + p of the padded operands;
    the weight blocks are the weight arrays. -/
theorem flushed_eq (c : Dev nD) (t : Fin cfg0.N) :
    (dats m 0 c).flushed 15 t = ((cfg0.win 15).blk t).view.read (Elt Ideal) (entryNodes m c) := by
  show (cfg0.win 15).cut (grid0.coords t) ((dats m 0 c).after 15 t) = _
  rw [after0_15]
  unfold out0_15
  rw [View.canon_unit_zero hz]
  simp only [View.ld_unit_zero (S := S1024x128) hz, View.ld_unit_zero (S := S128x128) hz, View.ld_unit_zero (S := S1x128) hz,
    View.ld_unit_zero (S := S256x256) hz, View.ld_unit_zero (S := S1x256) hz, View.ld_unit_zero (S := S256x128) hz]
  obtain ⟨o0, o1, e00, e01, e10, e11, e20, e21, e30, e31, e40, e41, e50, e51, e60, e61, e70, e71, e80, e81, e90, e91,
    e100, e101, e110, e111, e120, e121, e130, e131, e140, e141⟩ := idx_facts t
  funext j
  obtain ⟨p, q, rfl⟩ : ∃ (p : Fin 1024) (q : Fin 128), j = ix2 p q := ⟨j 0, j 1, eq_ix2 j⟩
  refine (BlockRow.payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t)
    (iblk m c 14 t) p q).trans ?_
  have hp : p.val < 1024 := p.isLt
  have hq : q.val < 128 := q.isLt
  refine out_congr ?_ ?_ ?_ ?_ ?_ ?_ ?_ ?_ ?_ ?_ ?_ ?_ ?_ ?_ ?_ ?_
  · funext k
    show V m c main_v24 (((cfg0.win 0).blk t).view.emb (ix2 p k)) = V m c main_v24 (ix2 ((((cfg0.win 15).blk t).view.emb (ix2 p q)) 0) k)
    refine congrArg _ (funext fun a => Fin.ext ?_)
    match a with
    | ⟨0, _⟩ => show win0_0.index t (0 : Fin 2) * 1024 + 1 * p.val = win0_15.index t (0 : Fin 2) * 1024 + 1 * p.val; omega
    | ⟨1, _⟩ => show win0_0.index t (1 : Fin 2) * 128 + 1 * k.val = k.val; omega
  · funext k
    show V m c main_v25 (((cfg0.win 1).blk t).view.emb (ix2 p k)) = V m c main_v25 (ix2 ((((cfg0.win 15).blk t).view.emb (ix2 p q)) 0) k)
    refine congrArg _ (funext fun a => Fin.ext ?_)
    match a with
    | ⟨0, _⟩ => show win0_1.index t (0 : Fin 2) * 1024 + 1 * p.val = win0_15.index t (0 : Fin 2) * 1024 + 1 * p.val; omega
    | ⟨1, _⟩ => show win0_1.index t (1 : Fin 2) * 128 + 1 * k.val = k.val; omega
  · funext k
    show V m c main_v26 (((cfg0.win 2).blk t).view.emb (ix2 p k)) = V m c main_v26 (ix2 ((((cfg0.win 15).blk t).view.emb (ix2 p q)) 0) k)
    refine congrArg _ (funext fun a => Fin.ext ?_)
    match a with
    | ⟨0, _⟩ => show win0_2.index t (0 : Fin 2) * 1024 + 1 * p.val = win0_15.index t (0 : Fin 2) * 1024 + 1 * p.val; omega
    | ⟨1, _⟩ => show win0_2.index t (1 : Fin 2) * 128 + 1 * k.val = k.val; omega
  · funext k n
    show V m c main_v27 (((cfg0.win 3).blk t).view.emb (ix2 k n)) = V m c main_v27 (ix2 k n)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * n.val = n.val; omega
  · funext n
    show V m c main_v31 (((cfg0.win 4).blk t).view.emb (ix2 (0 : Fin 1) n)) = V m c main_v31 (ix2 (0 : Fin 1) n)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * n.val = n.val; omega
  · funext n
    show V m c main_v32 (((cfg0.win 5).blk t).view.emb (ix2 (0 : Fin 1) n)) = V m c main_v32 (ix2 (0 : Fin 1) n)
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * n.val = n.val; omega
  · funext n
    show V m c main_v33 (((cfg0.win 6).blk t).view.emb (ix2 (0 : Fin 1) n)) = V m c main_v33 (ix2 (0 : Fin 1) n)
    refine congrArg _ (funext fun a => Fin.ext ?_)
    match a with
    | ⟨0, _⟩ => show win0_6.index t (0 : Fin 2) * 1 + 1 * 0 = 0; omega
    | ⟨1, _⟩ => show win0_6.index t (1 : Fin 2) * 128 + 1 * n.val = n.val; omega
  · funext k n
    show V m c main_v28 (((cfg0.win 7).blk t).view.emb (ix2 k n)) = V m c main_v28 (ix2 k n)
    refine congrArg _ (funext fun a => Fin.ext ?_)
    match a with
    | ⟨0, _⟩ => show win0_7.index t (0 : Fin 2) * 128 + 1 * k.val = k.val; omega
    | ⟨1, _⟩ => show win0_7.index t (1 : Fin 2) * 128 + 1 * n.val = n.val; omega
  · funext n
    show V m c main_v34 (((cfg0.win 8).blk t).view.emb (ix2 (0 : Fin 1) n)) = V m c main_v34 (ix2 (0 : Fin 1) n)
    refine congrArg _ (funext fun a => Fin.ext ?_)
    match a with
    | ⟨0, _⟩ => show win0_8.index t (0 : Fin 2) * 1 + 1 * 0 = 0; omega
    | ⟨1, _⟩ => show win0_8.index t (1 : Fin 2) * 128 + 1 * n.val = n.val; omega
  · funext n
    show V m c main_v35 (((cfg0.win 9).blk t).view.emb (ix2 (0 : Fin 1) n)) = V m c main_v35 (ix2 (0 : Fin 1) n)
    refine congrArg _ (funext fun a => Fin.ext ?_)
    match a with
    | ⟨0, _⟩ => show win0_9.index t (0 : Fin 2) * 1 + 1 * 0 = 0; omega
    | ⟨1, _⟩ => show win0_9.index t (1 : Fin 2) * 128 + 1 * n.val = n.val; omega
  · funext n
    show V m c main_v36 (((cfg0.win 10).blk t).view.emb (ix2 (0 : Fin 1) n)) = V m c main_v36 (ix2 (0 : Fin 1) n)
    refine congrArg _ (funext fun a => Fin.ext ?_)
    match a with
    | ⟨0, _⟩ => show win0_10.index t (0 : Fin 2) * 1 + 1 * 0 = 0; omega
    | ⟨1, _⟩ => show win0_10.index t (1 : Fin 2) * 128 + 1 * n.val = n.val; omega
  · funext k n
    show V m c main_v29 (((cfg0.win 11).blk t).view.emb (ix2 k n)) = V m c main_v29 (ix2 k n)
    refine congrArg _ (funext fun a => Fin.ext ?_)
    match a with
    | ⟨0, _⟩ => show win0_11.index t (0 : Fin 2) * 256 + 1 * k.val = k.val; omega
    | ⟨1, _⟩ => show win0_11.index t (1 : Fin 2) * 256 + 1 * n.val = n.val; omega
  · funext n
    show V m c main_v37 (((cfg0.win 12).blk t).view.emb (ix2 (0 : Fin 1) n)) = V m c main_v37 (ix2 (0 : Fin 1) n)
    refine congrArg _ (funext fun a => Fin.ext ?_)
    match a with
    | ⟨0, _⟩ => show win0_12.index t (0 : Fin 2) * 1 + 1 * 0 = 0; omega
    | ⟨1, _⟩ => show win0_12.index t (1 : Fin 2) * 256 + 1 * n.val = n.val; omega
  · funext k n
    show V m c main_v30 (((cfg0.win 13).blk t).view.emb (ix2 k n)) = V m c main_v30 (ix2 k n)
    refine congrArg _ (funext fun a => Fin.ext ?_)
    match a with
    | ⟨0, _⟩ => show win0_13.index t (0 : Fin 2) * 256 + 1 * k.val = k.val; omega
    | ⟨1, _⟩ => show win0_13.index t (1 : Fin 2) * 128 + 1 * n.val = n.val; omega
  · funext n
    show V m c main_v38 (((cfg0.win 14).blk t).view.emb (ix2 (0 : Fin 1) n)) = V m c main_v38 (ix2 (0 : Fin 1) n)
    refine congrArg _ (funext fun a => Fin.ext ?_)
    match a with
    | ⟨0, _⟩ => show win0_14.index t (0 : Fin 2) * 1 + 1 * 0 = 0; omega
    | ⟨1, _⟩ => show win0_14.index t (1 : Fin 2) * 128 + 1 * n.val = n.val; omega
  · exact Fin.ext (by show q.val = win0_15.index t (1 : Fin 2) * 128 + 1 * q.val; omega)

/-! ## The 98 blocks tile the output -/

/-- An index of the output array is in point `t`'s block iff each coordinate is in the block's range on its axis. -/
theorem mem_blk (t : Fin cfg0.N) (i : S100352x128.Idx) :
    i ∈ ((cfg0.win 15).blk t).view.set ↔ ∀ a : Fin 2, win0_15.index t a * S1024x128.size a ≤ (i a).val
      ∧ (i a).val < win0_15.index t a * S1024x128.size a + S1024x128.size a := by
  show i ∈ ((View.whole main_v39).slice (win0_15.rect t)).set ↔ _
  rw [View.set_slice_whole, Rect.mem_set_unit]
  exact Iff.rfl

/-- Row `r` lies in the block of point `r / 1024`. -/
theorem cover (i : S100352x128.Idx) :
    ∃ t : Fin cfg0.N, (cfg0.win 15).flush t = true ∧ i ∈ ((cfg0.win 15).blk t).view.set := by
  have hi0 : (i 0).val < 100352 := (i 0).isLt
  have hi1 : (i 1).val < 128 := (i 1).isLt
  have hN : cfg0.N = 98 := N_0
  have ht : (i 0).val / 1024 < cfg0.N := by rw [hN]; omega
  obtain ⟨o0, o1, -⟩ := idx_facts ⟨(i 0).val / 1024, ht⟩
  refine ⟨⟨(i 0).val / 1024, ht⟩, flush0_15 _, (mem_blk _ i).2 fun a => ?_⟩
  match a with
  | ⟨0, _⟩ =>
    show win0_15.index ⟨(i 0).val / 1024, ht⟩ (0 : Fin 2) * 1024 ≤ (i 0).val
      ∧ (i 0).val < win0_15.index ⟨(i 0).val / 1024, ht⟩ (0 : Fin 2) * 1024 + 1024
    have : (⟨(i 0).val / 1024, ht⟩ : Fin cfg0.N).val = (i 0).val / 1024 := rfl
    omega
  | ⟨1, _⟩ =>
    show win0_15.index ⟨(i 0).val / 1024, ht⟩ (1 : Fin 2) * 128 ≤ (i 1).val
      ∧ (i 1).val < win0_15.index ⟨(i 0).val / 1024, ht⟩ (1 : Fin 2) * 128 + 128
    omega

/-- THE OUTPUT ARRAY after the run: every padded row updated. -/
theorem final (c : Dev nD) : (dats m 0 c).arrAt 15 cfg0.N = entryNodes m c :=
  (dats m 0 c).arrAt_eq_of_cover 15 (entryNodes m c) (fun t _ => flushed_eq m c t) cover

end Cert.KernelIdeal.NodeBlocks

end
-- ==== Proof.KeptRows.lean ====
/-
  The rows the host keeps, as a function of the arguments.

  After the region the host keeps rows 0 … 99999 of the [100352, 128] output. On those rows a padded operand's row is the
  unpadded operand's row (the padding only adds rows 100000 … 100351), a transposed weight matrix read at (k, n) is the
  stored matrix at (n, k), and a bias reshaped to [1, n] read at its one row is the bias. The two edge aggregates are computed
  before the region by the same host operations, on the same two arguments, as the reference's aggregate stages (a gather of
  feature rows along the edges, scatter-added at the other endpoint), so they are those stages' arrays; the update depends on
  them only through their rows. So the kept rows are `RowMath.nodes` of the feature argument, the two aggregate stages, and the weight arguments.
-/
import proofs.«150959_j60120952209623_1_alg».proof.Proof.NodeBlocks
import proofs.«150959_j60120952209623_1_alg».proof.Proof.Gen.ReferenceIdeal.Read

set_option maxRecDepth 16384

noncomputable section

namespace Cert.KernelIdeal.KeptRows

open Cert.KernelIdeal Cert.KernelIdeal.Gen Cert.KernelIdeal.NodeBlocks Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## The slice after the region -/

/-- What the result buffer holds after the slice that follows the region: the first 100000 rows of the output array. -/
theorem tail_eq (c : Dev nD) :
    Pipeline.afterTail₀ cfgs (dats m) 0 (V0 m) [hostOps1] c main_v40
      = extractStridedSlice S100000x128 ![0, 0] (entryNodes m c) slices_S100352x128_S100000x128_0_0 := by
  have hA : Pipeline.withArrays spec0 c (V0 m c) (fun w => (dats m 0 c).arrAt w cfg0.N) (Proc.devRef .tc main_v39) = entryNodes m c :=
    (Pipeline.withArrays_arr spec0 launch0.win.arr_inj c (V0 m c) (fun w => (dats m 0 c).arrAt w cfg0.N) 15).trans (final m c)
  unfold Pipeline.afterTail₀
  show StableHlo.after hostOps1 _ (Proc.devRef .tc main_v40) = _
  after_results
  exact congrArg (fun A => extractStridedSlice S100000x128 ![0, 0] A slices_S100352x128_S100000x128_0_0) hA

/-! ## The three row-blocked operands as the region finds them -/

set_option maxHeartbeats 4000000 in
/-- The padded features: the feature argument with 352 rows of the padding value appended. -/
theorem feat_pad (c : Dev nD) :
    V m c main_v24 = pad S100352x128 ![0, 0] ![352, 0] ![0, 0] (m ((c : Thread nD τ).loc main_arg0))
      (sitofp (F := Ideal) .f32 (constantI S_ 32 0#32)) pads_S100000x128_S100352x128_03520_000 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The padding of the first aggregate is written through typed references of a module-local function, whose transports
    are identities: over any array the transported form is the plain padded array. -/
theorem agg1_pad_plain (A : (⟨S100000x128, .f32⟩ : BufTy).Contents (Elt Ideal)) :
    (TRef.of main_v25 : TRef sig ⟨S100352x128, .f32⟩).toBuf (Val := Elt Ideal)
      (pad S100352x128 ![0, 0] ![352, 0] ![0, 0] ((TRef.of main_v13 : TRef sig ⟨S100000x128, .f32⟩).ofBuf (Val := Elt Ideal) A)
        ((TRef.of main_call1_v0 : TRef sig ⟨S_, .f32⟩).ofBuf (Val := Elt Ideal)
          ((TRef.of main_call1_v0 : TRef sig ⟨S_, .f32⟩).toBuf (Val := Elt Ideal)
            (sitofp (F := Ideal) .f32 ((TRef.of main_c_5 : TRef sig ⟨S_, .i32⟩).ofBuf (Val := Elt Ideal) (constantI S_ 32 0#32)))))
        pads_S100000x128_S100352x128_03520_000 h_S_)
    = pad S100352x128 ![0, 0] ![352, 0] ![0, 0] A (sitofp (F := Ideal) .f32 (constantI S_ 32 0#32))
        pads_S100000x128_S100352x128_03520_000 h_S_ := rfl

set_option maxHeartbeats 4000000 in
/-- The first padded aggregate: the aggregate along the edges as given — the same gather and scatter-add of the same two
    arguments as the reference's stage — with 352 rows appended. -/
theorem agg1_pad (c : Dev nD) :
    V m c main_v25 = pad S100352x128 ![0, 0] ![352, 0] ![0, 0]
      (Cert.ReferenceIdeal.Read.val_main_v13 (F := Ideal) (m ((c : Thread nD τ).loc main_arg0)) (m ((c : Thread nD τ).loc main_arg1)))
      (sitofp (F := Ideal) .f32 (constantI S_ 32 0#32)) pads_S100000x128_S100352x128_03520_000 h_S_ := by
  refine Eq.trans ?_ (agg1_pad_plain _)
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The same for the padding of the second aggregate. -/
theorem agg2_pad_plain (A : (⟨S100000x128, .f32⟩ : BufTy).Contents (Elt Ideal)) :
    (TRef.of main_v26 : TRef sig ⟨S100352x128, .f32⟩).toBuf (Val := Elt Ideal)
      (pad S100352x128 ![0, 0] ![352, 0] ![0, 0] ((TRef.of main_v23 : TRef sig ⟨S100000x128, .f32⟩).ofBuf (Val := Elt Ideal) A)
        ((TRef.of main_call2_v0 : TRef sig ⟨S_, .f32⟩).ofBuf (Val := Elt Ideal)
          ((TRef.of main_call2_v0 : TRef sig ⟨S_, .f32⟩).toBuf (Val := Elt Ideal)
            (sitofp (F := Ideal) .f32 ((TRef.of main_c_6 : TRef sig ⟨S_, .i32⟩).ofBuf (Val := Elt Ideal) (constantI S_ 32 0#32)))))
        pads_S100000x128_S100352x128_03520_000 h_S_)
    = pad S100352x128 ![0, 0] ![352, 0] ![0, 0] A (sitofp (F := Ideal) .f32 (constantI S_ 32 0#32))
        pads_S100000x128_S100352x128_03520_000 h_S_ := rfl

set_option maxHeartbeats 4000000 in
/-- The second padded aggregate: the aggregate along the reversed edges, likewise. -/
theorem agg2_pad (c : Dev nD) :
    V m c main_v26 = pad S100352x128 ![0, 0] ![352, 0] ![0, 0]
      (Cert.ReferenceIdeal.Read.val_main_v55 (F := Ideal) (m ((c : Thread nD τ).loc main_arg0)) (m ((c : Thread nD τ).loc main_arg1)))
      (sitofp (F := Ideal) .f32 (constantI S_ 32 0#32)) pads_S100000x128_S100352x128_03520_000 h_S_ := by
  refine Eq.trans ?_ (agg2_pad_plain _)
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- A padded array read at a row below 100000 is the unpadded array there. -/
theorem pad_row (x : S100000x128.Idx → Elt Ideal .f32) (z : S_.Idx → Elt Ideal .f32) (p : Fin 100000) (p' : Fin 100352)
    (hp : p'.val = p.val) (k : Fin 128) :
    pad S100352x128 ![0, 0] ![352, 0] ![0, 0] x z pads_S100000x128_S100352x128_03520_000 h_S_ (ix2 p' k) = x (ix2 p k) :=
  pad_apply_of_inside _ _ _ x z pads_S100000x128_S100352x128_03520_000 h_S_ (ix2 p' k) (ix2 p k) fun a => by
    match a with
    | ⟨0, _⟩ => show p'.val = 0 + p.val * (0 + 1); omega
    | ⟨1, _⟩ => show k.val = 0 + k.val * (0 + 1); omega

/-! ## The weight operands as the region finds them -/

/-- A buffer that a host operation before the region writes from argument buffers alone holds, when the region is entered,
    that operation applied to the arguments: no later operation of the prefix writes it. -/
local macro "read_entry" : tactic =>
  `(tactic| (dsimp only [Gen.V, Gen.V0]
             simp only [Gen.hostOps0, Gen.hostOps0_1, Gen.hostOps0_2, Gen.hostOps0_3, Gen.hostOps0_4, Gen.hostOps0_5, Gen.hostOps0_6,
               List.flatten_cons, List.flatten_nil, List.append_nil, List.cons_append, List.nil_append]
             after_results <;> rfl))

/-- The first branch's weight as the body meets it: the stored matrix transposed. -/
theorem w1T_eq (c : Dev nD) :
    V m c main_v27 = transpose S128x128 [1, 0] (m ((c : Thread nD τ).loc main_arg2)) transposes_S128x128_S128x128_1_0 := by
  read_entry

/-- The second branch's weight, transposed. -/
theorem w2T_eq (c : Dev nD) :
    V m c main_v28 = transpose S128x128 [1, 0] (m ((c : Thread nD τ).loc main_arg6)) transposes_S128x128_S128x128_1_0 := by
  read_entry

/-- The merge network's first weight, transposed. -/
theorem wl1T_eq (c : Dev nD) :
    V m c main_v29 = transpose S256x256 [1, 0] (m ((c : Thread nD τ).loc main_arg10)) transposes_S256x256_S256x256_1_0 := by
  read_entry

/-- The merge network's second weight, transposed: [128, 256] to [256, 128]. -/
theorem wl2T_eq (c : Dev nD) :
    V m c main_v30 = transpose S256x128 [1, 0] (m ((c : Thread nD τ).loc main_arg12)) transposes_S128x256_S256x128_1_0 := by
  read_entry

/-- The first branch's bias as one row. -/
theorem b1R_eq (c : Dev nD) :
    V m c main_v31 = shapeCast S1x128 (m ((c : Thread nD τ).loc main_arg3)) shapeCasts_S128_S1x128 := by
  read_entry

/-- The first branch's gain as one row. -/
theorem g1R_eq (c : Dev nD) :
    V m c main_v32 = shapeCast S1x128 (m ((c : Thread nD τ).loc main_arg4)) shapeCasts_S128_S1x128 := by
  read_entry

/-- The first branch's shift as one row. -/
theorem bt1R_eq (c : Dev nD) :
    V m c main_v33 = shapeCast S1x128 (m ((c : Thread nD τ).loc main_arg5)) shapeCasts_S128_S1x128 := by
  read_entry

/-- The second branch's bias as one row. -/
theorem b2R_eq (c : Dev nD) :
    V m c main_v34 = shapeCast S1x128 (m ((c : Thread nD τ).loc main_arg7)) shapeCasts_S128_S1x128 := by
  read_entry

/-- The second branch's gain as one row. -/
theorem g2R_eq (c : Dev nD) :
    V m c main_v35 = shapeCast S1x128 (m ((c : Thread nD τ).loc main_arg8)) shapeCasts_S128_S1x128 := by
  read_entry

/-- The second branch's shift as one row. -/
theorem bt2R_eq (c : Dev nD) :
    V m c main_v36 = shapeCast S1x128 (m ((c : Thread nD τ).loc main_arg9)) shapeCasts_S128_S1x128 := by
  read_entry

/-- The merge network's first bias as one row of 256. -/
theorem bl1R_eq (c : Dev nD) :
    V m c main_v37 = shapeCast S1x256 (m ((c : Thread nD τ).loc main_arg11)) shapeCasts_S256_S1x256 := by
  read_entry

/-- The merge network's second bias as one row. -/
theorem bl2R_eq (c : Dev nD) :
    V m c main_v38 = shapeCast S1x128 (m ((c : Thread nD τ).loc main_arg13)) shapeCasts_S128_S1x128 := by
  read_entry

/-! ## The kept rows -/

/-- The update of every node from the arguments and the two aggregate stages. -/
abbrev keptNodes (c : Dev nD) : S100000x128.Idx → EReal :=
  Cert.RowMath.nodes (m ((c : Thread nD τ).loc main_arg0))
    (Cert.ReferenceIdeal.Read.val_main_v13 (F := Ideal) (m ((c : Thread nD τ).loc main_arg0)) (m ((c : Thread nD τ).loc main_arg1)))
    (Cert.ReferenceIdeal.Read.val_main_v55 (F := Ideal) (m ((c : Thread nD τ).loc main_arg0)) (m ((c : Thread nD τ).loc main_arg1)))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- THE KEPT ROWS: rows 0 … 99999 of the output are the update of every node. Row `p` of a padded operand is row `p` of the
    operand; the transposed weights are read at the swapped index and the one-row biases at their row. -/
theorem kept (c : Dev nD) :
    extractStridedSlice S100000x128 ![0, 0] (entryNodes m c) slices_S100352x128_S100000x128_0_0 = keptNodes m c := by
  funext i
  obtain ⟨p, q, rfl⟩ : ∃ (p : Fin 100000) (q : Fin 128), i = ix2 p q := ⟨i 0, i 1, eq_ix2 i⟩
  have hp : p.val < 100000 := p.isLt
  refine (slice2_axis0_apply 0 (entryNodes m c) slices_S100352x128_S100000x128_0_0 p q ⟨p.val, by omega⟩
    (Nat.zero_add _).symm).trans ?_
  show Cert.RowMath.out _ _ _ _ _ _ _ _ _ _ _ _ _ _ _ _ = Cert.RowMath.out _ _ _ _ _ _ _ _ _ _ _ _ _ _ _ _
  refine out_congr ?_ ?_ ?_ ?_ ?_ ?_ ?_ ?_ ?_ ?_ ?_ ?_ ?_ ?_ ?_ rfl
  · funext k; exact (congrFun (feat_pad m c) _).trans (pad_row _ _ p ⟨p.val, by omega⟩ rfl k)
  · funext k; exact (congrFun (agg1_pad m c) _).trans (pad_row _ _ p ⟨p.val, by omega⟩ rfl k)
  · funext k; exact (congrFun (agg2_pad m c) _).trans (pad_row _ _ p ⟨p.val, by omega⟩ rfl k)
  · funext k n; exact (congrFun (w1T_eq m c) _).trans (transpose_ix2_apply _ _ k n)
  · funext n; exact (congrFun (b1R_eq m c) _).trans (shapeCast_a_1a_apply _ _ 0 n)
  · funext n; exact (congrFun (g1R_eq m c) _).trans (shapeCast_a_1a_apply _ _ 0 n)
  · funext n; exact (congrFun (bt1R_eq m c) _).trans (shapeCast_a_1a_apply _ _ 0 n)
  · funext k n; exact (congrFun (w2T_eq m c) _).trans (transpose_ix2_apply _ _ k n)
  · funext n; exact (congrFun (b2R_eq m c) _).trans (shapeCast_a_1a_apply _ _ 0 n)
  · funext n; exact (congrFun (g2R_eq m c) _).trans (shapeCast_a_1a_apply _ _ 0 n)
  · funext n; exact (congrFun (bt2R_eq m c) _).trans (shapeCast_a_1a_apply _ _ 0 n)
  · funext k n; exact (congrFun (wl1T_eq m c) _).trans (transpose_ix2_apply _ _ k n)
  · funext n; exact (congrFun (bl1R_eq m c) _).trans (shapeCast_a_1a_apply _ _ 0 n)
  · funext k n; exact (congrFun (wl2T_eq m c) _).trans (transpose_ix2_apply _ _ k n)
  · funext n; exact (congrFun (bl2R_eq m c) _).trans (shapeCast_a_1a_apply _ _ 0 n)

/-! ## The run, read -/

/-- Every weakly fair execution of the kernel program at the exact values ends with the result buffer at the update of every
    node and the arguments unchanged: the frame run, with the result buffer read through the slice and the output array. -/
theorem run : θ_run defs (onTc (τ := τ) (main (F := Ideal))) ⟨m, fun _ => 0, ρ⟩ fun r => ∀ c : Dev nD,
      r.2.mem ((c.tc : Thread nD τ).loc main_v40) = keptNodes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c =>
    ⟨((h c).2 main_v40 (Pipeline.mem_restRefs_of main_v40 (by decide) (by decide))).trans ((tail_eq m c).trans (kept m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.KeptRows

end
-- ==== Proof.RefRow.lean ====
/-
  The reference on all 100000 nodes, read at an entry.

  The reference computes the same layers on whole [100000, 128] arrays: entry (p, q) of its result is `RowMath.out` of row `p` of
  the features and of the two edge aggregates (the scatter-added gathers, which are left as they are: both programs compute
  them by the same host operations).
-/
import proofs.«150959_j60120952209623_1_alg».proof.Proof.Gen.ReferenceIdeal.Read
import proofs.«150959_j60120952209623_1_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRow

open Cert.ReferenceIdeal Cert.ReferenceIdeal.Read Idealize.ShloMosaic Idealize.ShloMosaic.ValueIdx

section Branch1

variable (X : (⟨S100000x128, .f32⟩ : BufTy).Contents (Elt Ideal)) (EI : (⟨S2x1600000, .i32⟩ : BufTy).Contents (Elt Ideal))
  (W1 : (⟨S128x128, .f32⟩ : BufTy).Contents (Elt Ideal)) (b1 g1 bt1 : (⟨S128, .f32⟩ : BufTy).Contents (Elt Ideal))

/-- The first affine layer: entry (p, q) is Σₖ h₁(p, k) · W₁(q, k) + b₁(q). -/
theorem v19_eq (p : Fin 100000) (q : Fin 128) :
    val_main_v19 (F := Ideal) X EI W1 b1 (ix2 p q)
      = Cert.RowMath.affine (fun k n => W1 (ix2 n k)) (fun n => b1 (ix1 n))
          (fun k => val_main_v14 (F := Ideal) X EI (ix2 p k)) q := by
  have el : ∀ k : Fin 128, lidx_main_v16 (ix2 p q) k = ix2 p k := fun k =>
    funext fun a => Fin.ext (by match a with | ⟨0, _⟩ => rfl | ⟨1, _⟩ => rfl)
  have er : ∀ k : Fin 128, idx_main_v15 (ridx_main_v16 (ix2 p q) k) = ix2 q k := fun k =>
    funext fun a => Fin.ext (by match a with | ⟨0, _⟩ => rfl | ⟨1, _⟩ => rfl)
  have eb : idx_main_v17 (idx_main_v18 (ix2 p q)) = ix1 q :=
    funext fun a => Fin.ext (by match a with | ⟨0, _⟩ => rfl)
  rw [val_main_v19_apply, val_main_v16_apply, val_main_v18_apply, val_main_v17_apply, eb]
  simp only [val_main_v15_apply, el, er, Ideal.addf_def]
  rfl

/-- The row mean of the first affine layer: the column entry (p, 0) is the mean of row p. -/
theorem v23_eq (p : Fin 100000) (z : Fin 1) :
    val_main_v23 (F := Ideal) X EI W1 b1 (ix2 p z)
      = Cert.RowMath.mean (fun j => val_main_v19 (F := Ideal) X EI W1 b1 (ix2 p j)) := by
  have e : ∀ k : Fin 128, idx_main_v20 (idx_main_v21 (ix2 p z)) k = ix2 p k := fun k =>
    funext fun a => Fin.ext (by match a with | ⟨0, _⟩ => rfl | ⟨1, _⟩ => rfl)
  rw [val_main_v23_apply, val_main_v21_apply, val_main_v20_apply, val_main_v22_apply, val_main_cst_2_apply,
    val_main_cst_1_apply]
  simp only [e, Ideal.hostDivf_def, Ideal.ofBits_def, Ideal.ofBits_zero_f32, zero_add]
  rfl

/-- The centred row: entry (p, q) less the mean of row p. -/
theorem v25_eq (p : Fin 100000) (q : Fin 128) :
    val_main_v25 (F := Ideal) X EI W1 b1 (ix2 p q)
      = val_main_v19 (F := Ideal) X EI W1 b1 (ix2 p q)
        - Cert.RowMath.mean (fun j => val_main_v19 (F := Ideal) X EI W1 b1 (ix2 p j)) := by
  have e : idx_main_v24 (ix2 p q) = ix2 p (0 : Fin 1) :=
    funext fun a => Fin.ext (by match a with | ⟨0, _⟩ => rfl | ⟨1, _⟩ => rfl)
  rw [val_main_v25_apply, val_main_v24_apply, e, v23_eq, Ideal.subf_def]

/-- The same centred row, as the reference computes it a second time. -/
theorem v32_eq (p : Fin 100000) (q : Fin 128) :
    val_main_v32 (F := Ideal) X EI W1 b1 (ix2 p q)
      = val_main_v19 (F := Ideal) X EI W1 b1 (ix2 p q)
        - Cert.RowMath.mean (fun j => val_main_v19 (F := Ideal) X EI W1 b1 (ix2 p j)) := by
  have e : idx_main_v31 (ix2 p q) = ix2 p (0 : Fin 1) :=
    funext fun a => Fin.ext (by match a with | ⟨0, _⟩ => rfl | ⟨1, _⟩ => rfl)
  rw [val_main_v32_apply, val_main_v31_apply, e, v23_eq, Ideal.subf_def]

/-- The row variance: the column entry (p, 0) is the mean of the squared centred row p. -/
theorem v30_eq (p : Fin 100000) (z : Fin 1) :
    val_main_v30 (F := Ideal) X EI W1 b1 (ix2 p z)
      = Cert.RowMath.mean (fun j =>
          (val_main_v19 (F := Ideal) X EI W1 b1 (ix2 p j)
            - Cert.RowMath.mean (fun j => val_main_v19 (F := Ideal) X EI W1 b1 (ix2 p j)))
          * (val_main_v19 (F := Ideal) X EI W1 b1 (ix2 p j)
            - Cert.RowMath.mean (fun j => val_main_v19 (F := Ideal) X EI W1 b1 (ix2 p j)))) := by
  have e : ∀ k : Fin 128, idx_main_v27 (idx_main_v28 (ix2 p z)) k = ix2 p k := fun k =>
    funext fun a => Fin.ext (by match a with | ⟨0, _⟩ => rfl | ⟨1, _⟩ => rfl)
  rw [val_main_v30_apply, val_main_v28_apply, val_main_v27_apply, val_main_v29_apply, val_main_cst_4_apply,
    val_main_cst_3_apply]
  simp only [e, val_main_v26_apply, v25_eq, Ideal.mulf_def, Ideal.hostDivf_def, Ideal.ofBits_def, Ideal.ofBits_zero_f32,
    zero_add]
  rfl

/-- The normalised row: entry (p, q) is the centred entry times rsqrt(variance + ε). -/
theorem v37_eq (p : Fin 100000) (q : Fin 128) :
    val_main_v37 (F := Ideal) X EI W1 b1 (ix2 p q)
      = Cert.RowMath.normalize (fun j => val_main_v19 (F := Ideal) X EI W1 b1 (ix2 p j)) q := by
  have e : idx_main_v36 (ix2 p q) = ix2 p (0 : Fin 1) :=
    funext fun a => Fin.ext (by match a with | ⟨0, _⟩ => rfl | ⟨1, _⟩ => rfl)
  rw [val_main_v37_apply, val_main_v36_apply, e, val_main_v35_apply, val_main_v34_apply, val_main_v33_apply,
    val_main_cst_5_apply, v32_eq, v30_eq]
  simp only [Ideal.mulf_def, Ideal.addf_def, Ideal.hostUnary_rsqrt_def, Ideal.ofBits_def]
  rfl

/-- The first residual branch: entry (p, q) is h₁(p, q) + max(normalised · g₁ + β₁, 0). -/
theorem v45_eq (p : Fin 100000) (q : Fin 128) :
    val_main_v45 (F := Ideal) X EI W1 b1 g1 bt1 (ix2 p q)
      = Cert.RowMath.branch (fun k n => W1 (ix2 n k)) (fun n => b1 (ix1 n)) (fun n => g1 (ix1 n)) (fun n => bt1 (ix1 n))
          (fun k => val_main_v14 (F := Ideal) X EI (ix2 p k)) q := by
  have eg : idx_main_v38 (idx_main_v39 (ix2 p q)) = ix1 q :=
    funext fun a => Fin.ext (by match a with | ⟨0, _⟩ => rfl)
  have ebt : idx_main_v41 (idx_main_v42 (ix2 p q)) = ix1 q :=
    funext fun a => Fin.ext (by match a with | ⟨0, _⟩ => rfl)
  have hrow : (fun j => val_main_v19 (F := Ideal) X EI W1 b1 (ix2 p j))
      = Cert.RowMath.affine (fun k n => W1 (ix2 n k)) (fun n => b1 (ix1 n))
          (fun k => val_main_v14 (F := Ideal) X EI (ix2 p k)) := funext fun j => v19_eq X EI W1 b1 p j
  rw [val_main_v45_apply, val_main_v44_apply, val_main_v43_apply, val_main_v40_apply, val_main_v39_apply,
    val_main_v38_apply, eg, val_main_v42_apply, val_main_v41_apply, ebt, val_main_call0_v0_apply,
    val_main_call0_cst_apply, v37_eq, hrow]
  simp only [Ideal.mulf_def, Ideal.addf_def, Ideal.maximumf_def, Ideal.ofBits_def, Ideal.ofBits_zero_f32]
  rfl

end Branch1

section Branch2

variable (X : (⟨S100000x128, .f32⟩ : BufTy).Contents (Elt Ideal)) (EI : (⟨S2x1600000, .i32⟩ : BufTy).Contents (Elt Ideal))
  (W2 : (⟨S128x128, .f32⟩ : BufTy).Contents (Elt Ideal)) (b2 g2 bt2 : (⟨S128, .f32⟩ : BufTy).Contents (Elt Ideal))

/-- The second affine layer: entry (p, q) is Σₖ h₂(p, k) · W₂(q, k) + b₂(q). -/
theorem v61_eq (p : Fin 100000) (q : Fin 128) :
    val_main_v61 (F := Ideal) X EI W2 b2 (ix2 p q)
      = Cert.RowMath.affine (fun k n => W2 (ix2 n k)) (fun n => b2 (ix1 n))
          (fun k => val_main_v56 (F := Ideal) X EI (ix2 p k)) q := by
  have el : ∀ k : Fin 128, lidx_main_v58 (ix2 p q) k = ix2 p k := fun k =>
    funext fun a => Fin.ext (by match a with | ⟨0, _⟩ => rfl | ⟨1, _⟩ => rfl)
  have er : ∀ k : Fin 128, idx_main_v57 (ridx_main_v58 (ix2 p q) k) = ix2 q k := fun k =>
    funext fun a => Fin.ext (by match a with | ⟨0, _⟩ => rfl | ⟨1, _⟩ => rfl)
  have eb : idx_main_v59 (idx_main_v60 (ix2 p q)) = ix1 q :=
    funext fun a => Fin.ext (by match a with | ⟨0, _⟩ => rfl)
  rw [val_main_v61_apply, val_main_v58_apply, val_main_v60_apply, val_main_v59_apply, eb]
  simp only [val_main_v57_apply, el, er, Ideal.addf_def]
  rfl

/-- The row mean of the second affine layer: the column entry (p, 0) is the mean of row p. -/
theorem v65_eq (p : Fin 100000) (z : Fin 1) :
    val_main_v65 (F := Ideal) X EI W2 b2 (ix2 p z)
      = Cert.RowMath.mean (fun j => val_main_v61 (F := Ideal) X EI W2 b2 (ix2 p j)) := by
  have e : ∀ k : Fin 128, idx_main_v62 (idx_main_v63 (ix2 p z)) k = ix2 p k := fun k =>
    funext fun a => Fin.ext (by match a with | ⟨0, _⟩ => rfl | ⟨1, _⟩ => rfl)
  rw [val_main_v65_apply, val_main_v63_apply, val_main_v62_apply, val_main_v64_apply, val_main_cst_10_apply,
    val_main_cst_9_apply]
  simp only [e, Ideal.hostDivf_def, Ideal.ofBits_def, Ideal.ofBits_zero_f32, zero_add]
  rfl

/-- The centred row: entry (p, q) less the mean of row p. -/
theorem v67_eq (p : Fin 100000) (q : Fin 128) :
    val_main_v67 (F := Ideal) X EI W2 b2 (ix2 p q)
      = val_main_v61 (F := Ideal) X EI W2 b2 (ix2 p q)
        - Cert.RowMath.mean (fun j => val_main_v61 (F := Ideal) X EI W2 b2 (ix2 p j)) := by
  have e : idx_main_v66 (ix2 p q) = ix2 p (0 : Fin 1) :=
    funext fun a => Fin.ext (by match a with | ⟨0, _⟩ => rfl | ⟨1, _⟩ => rfl)
  rw [val_main_v67_apply, val_main_v66_apply, e, v65_eq, Ideal.subf_def]

/-- The same centred row, as the reference computes it a second time. -/
theorem v74_eq (p : Fin 100000) (q : Fin 128) :
    val_main_v74 (F := Ideal) X EI W2 b2 (ix2 p q)
      = val_main_v61 (F := Ideal) X EI W2 b2 (ix2 p q)
        - Cert.RowMath.mean (fun j => val_main_v61 (F := Ideal) X EI W2 b2 (ix2 p j)) := by
  have e : idx_main_v73 (ix2 p q) = ix2 p (0 : Fin 1) :=
    funext fun a => Fin.ext (by match a with | ⟨0, _⟩ => rfl | ⟨1, _⟩ => rfl)
  rw [val_main_v74_apply, val_main_v73_apply, e, v65_eq, Ideal.subf_def]

/-- The row variance: the column entry (p, 0) is the mean of the squared centred row p. -/
theorem v72_eq (p : Fin 100000) (z : Fin 1) :
    val_main_v72 (F := Ideal) X EI W2 b2 (ix2 p z)
      = Cert.RowMath.mean (fun j =>
          (val_main_v61 (F := Ideal) X EI W2 b2 (ix2 p j)
            - Cert.RowMath.mean (fun j => val_main_v61 (F := Ideal) X EI W2 b2 (ix2 p j)))
          * (val_main_v61 (F := Ideal) X EI W2 b2 (ix2 p j)
            - Cert.RowMath.mean (fun j => val_main_v61 (F := Ideal) X EI W2 b2 (ix2 p j)))) := by
  have e : ∀ k : Fin 128, idx_main_v69 (idx_main_v70 (ix2 p z)) k = ix2 p k := fun k =>
    funext fun a => Fin.ext (by match a with | ⟨0, _⟩ => rfl | ⟨1, _⟩ => rfl)
  rw [val_main_v72_apply, val_main_v70_apply, val_main_v69_apply, val_main_v71_apply, val_main_cst_12_apply,
    val_main_cst_11_apply]
  simp only [e, val_main_v68_apply, v67_eq, Ideal.mulf_def, Ideal.hostDivf_def, Ideal.ofBits_def, Ideal.ofBits_zero_f32,
    zero_add]
  rfl

/-- The normalised row: entry (p, q) is the centred entry times rsqrt(variance + ε). -/
theorem v79_eq (p : Fin 100000) (q : Fin 128) :
    val_main_v79 (F := Ideal) X EI W2 b2 (ix2 p q)
      = Cert.RowMath.normalize (fun j => val_main_v61 (F := Ideal) X EI W2 b2 (ix2 p j)) q := by
  have e : idx_main_v78 (ix2 p q) = ix2 p (0 : Fin 1) :=
    funext fun a => Fin.ext (by match a with | ⟨0, _⟩ => rfl | ⟨1, _⟩ => rfl)
  rw [val_main_v79_apply, val_main_v78_apply, e, val_main_v77_apply, val_main_v76_apply, val_main_v75_apply,
    val_main_cst_13_apply, v74_eq, v72_eq]
  simp only [Ideal.mulf_def, Ideal.addf_def, Ideal.hostUnary_rsqrt_def, Ideal.ofBits_def]
  rfl

/-- The second residual branch: entry (p, q) is h₂(p, q) + max(normalised · g₂ + β₂, 0). -/
theorem v87_eq (p : Fin 100000) (q : Fin 128) :
    val_main_v87 (F := Ideal) X EI W2 b2 g2 bt2 (ix2 p q)
      = Cert.RowMath.branch (fun k n => W2 (ix2 n k)) (fun n => b2 (ix1 n)) (fun n => g2 (ix1 n)) (fun n => bt2 (ix1 n))
          (fun k => val_main_v56 (F := Ideal) X EI (ix2 p k)) q := by
  have eg : idx_main_v80 (idx_main_v81 (ix2 p q)) = ix1 q :=
    funext fun a => Fin.ext (by match a with | ⟨0, _⟩ => rfl)
  have ebt : idx_main_v83 (idx_main_v84 (ix2 p q)) = ix1 q :=
    funext fun a => Fin.ext (by match a with | ⟨0, _⟩ => rfl)
  have hrow : (fun j => val_main_v61 (F := Ideal) X EI W2 b2 (ix2 p j))
      = Cert.RowMath.affine (fun k n => W2 (ix2 n k)) (fun n => b2 (ix1 n))
          (fun k => val_main_v56 (F := Ideal) X EI (ix2 p k)) := funext fun j => v61_eq X EI W2 b2 p j
  rw [val_main_v87_apply, val_main_v86_apply, val_main_v85_apply, val_main_v82_apply, val_main_v81_apply,
    val_main_v80_apply, eg, val_main_v84_apply, val_main_v83_apply, ebt, val_main_call1_v0_apply,
    val_main_call1_cst_apply, v79_eq, hrow]
  simp only [Ideal.mulf_def, Ideal.addf_def, Ideal.maximumf_def, Ideal.ofBits_def, Ideal.ofBits_zero_f32]
  rfl

end Branch2

section Merge

variable (X : (⟨S100000x128, .f32⟩ : BufTy).Contents (Elt Ideal)) (EI : (⟨S2x1600000, .i32⟩ : BufTy).Contents (Elt Ideal))
  (W1 : (⟨S128x128, .f32⟩ : BufTy).Contents (Elt Ideal)) (b1 g1 bt1 : (⟨S128, .f32⟩ : BufTy).Contents (Elt Ideal))
  (W2 : (⟨S128x128, .f32⟩ : BufTy).Contents (Elt Ideal)) (b2 g2 bt2 : (⟨S128, .f32⟩ : BufTy).Contents (Elt Ideal))
  (Wl1 : (⟨S256x256, .f32⟩ : BufTy).Contents (Elt Ideal)) (bl1 : (⟨S256, .f32⟩ : BufTy).Contents (Elt Ideal))
  (Wl2 : (⟨S128x256, .f32⟩ : BufTy).Contents (Elt Ideal)) (bl2 : (⟨S128, .f32⟩ : BufTy).Contents (Elt Ideal))

/-- The two branches side by side: entry (p, r) of the joined array is entry r of [r₁(p, ·) ‖ r₂(p, ·)]. -/
theorem v88_eq (p : Fin 100000) (r : Fin 256) :
    val_main_v88 (F := Ideal) X EI W1 b1 g1 bt1 W2 b2 g2 bt2 (ix2 p r)
      = Cert.RowMath.cat (fun k => val_main_v45 (F := Ideal) X EI W1 b1 g1 bt1 (ix2 p k))
          (fun k => val_main_v87 (F := Ideal) X EI W2 b2 g2 bt2 (ix2 p k)) r := by
  unfold val_main_v88 Cert.RowMath.cat
  generalize val_main_v45 (F := Ideal) X EI W1 b1 g1 bt1 = u
  generalize val_main_v87 (F := Ideal) X EI W2 b2 g2 bt2 = w
  by_cases h : r.val < 128
  · rw [dif_pos h]
    exact concatenate_pair_apply_left (1 : Fin 2) u w _ (ix2 p r) rfl
      (ix2 p ⟨r.val, h⟩) (fun b => by match b with | ⟨0, _⟩ => rfl | ⟨1, _⟩ => rfl)
  · rw [dif_neg h]
    exact concatenate_pair_apply_right (1 : Fin 2) u w _ (ix2 p r) rfl rfl
      (ix2 p ⟨r.val - 128, by have := r.isLt; omega⟩)
      (fun b hb => by
        match b, hb with
        | ⟨0, _⟩, _ => rfl
        | ⟨1, _⟩, hb => exact absurd rfl hb)
      (by show (r.val - 128) + 128 = r.val; omega)

/-- The merge network's hidden layer: entry (p, s) is max(Σᵣ [r₁ ‖ r₂](p, r) · Wl₁(s, r) + bl₁(s), 0). -/
theorem v94_eq (p : Fin 100000) (s : Fin 256) :
    val_main_v94 (F := Ideal) X EI W1 b1 g1 bt1 W2 b2 g2 bt2 Wl1 bl1 (ix2 p s)
      = max (Cert.RowMath.affine (fun k n => Wl1 (ix2 n k)) (fun n => bl1 (ix1 n))
          (fun r => val_main_v88 (F := Ideal) X EI W1 b1 g1 bt1 W2 b2 g2 bt2 (ix2 p r)) s) 0 := by
  have el : ∀ k : Fin 256, lidx_main_v90 (ix2 p s) k = ix2 p k := fun k =>
    funext fun a => Fin.ext (by match a with | ⟨0, _⟩ => rfl | ⟨1, _⟩ => rfl)
  have er : ∀ k : Fin 256, idx_main_v89 (ridx_main_v90 (ix2 p s) k) = ix2 s k := fun k =>
    funext fun a => Fin.ext (by match a with | ⟨0, _⟩ => rfl | ⟨1, _⟩ => rfl)
  have eb : idx_main_v91 (idx_main_v92 (ix2 p s)) = ix1 s :=
    funext fun a => Fin.ext (by match a with | ⟨0, _⟩ => rfl)
  rw [val_main_v94_apply, val_main_v93_apply, val_main_v90_apply, val_main_v92_apply, val_main_v91_apply, eb,
    val_main_call2_v0_apply, val_main_call2_cst_apply]
  simp only [val_main_v89_apply, el, er, Ideal.addf_def, Ideal.maximumf_def, Ideal.ofBits_def, Ideal.ofBits_zero_f32]
  rfl

/-- The merge network's output layer: entry (p, q) is max(Σₛ hidden(p, s) · Wl₂(q, s) + bl₂(q), 0). -/
theorem v100_eq (p : Fin 100000) (q : Fin 128) :
    val_main_v100 (F := Ideal) X EI W1 b1 g1 bt1 W2 b2 g2 bt2 Wl1 bl1 Wl2 bl2 (ix2 p q)
      = max (Cert.RowMath.affine (fun k n => Wl2 (ix2 n k)) (fun n => bl2 (ix1 n))
          (fun s => val_main_v94 (F := Ideal) X EI W1 b1 g1 bt1 W2 b2 g2 bt2 Wl1 bl1 (ix2 p s)) q) 0 := by
  have el : ∀ k : Fin 256, lidx_main_v96 (ix2 p q) k = ix2 p k := fun k =>
    funext fun a => Fin.ext (by match a with | ⟨0, _⟩ => rfl | ⟨1, _⟩ => rfl)
  have er : ∀ k : Fin 256, idx_main_v95 (ridx_main_v96 (ix2 p q) k) = ix2 q k := fun k =>
    funext fun a => Fin.ext (by match a with | ⟨0, _⟩ => rfl | ⟨1, _⟩ => rfl)
  have eb : idx_main_v97 (idx_main_v98 (ix2 p q)) = ix1 q :=
    funext fun a => Fin.ext (by match a with | ⟨0, _⟩ => rfl)
  rw [val_main_v100_apply, val_main_v99_apply, val_main_v96_apply, val_main_v98_apply, val_main_v97_apply, eb,
    val_main_call3_v0_apply, val_main_call3_cst_apply]
  simp only [val_main_v95_apply, el, er, Ideal.addf_def, Ideal.maximumf_def, Ideal.ofBits_def, Ideal.ofBits_zero_f32]
  rfl

end Merge

/-- The reference's result is every node updated at once, from the features, the two edge aggregates and the weights. -/
theorem result_eq (X : (⟨S100000x128, .f32⟩ : BufTy).Contents (Elt Ideal)) (EI : (⟨S2x1600000, .i32⟩ : BufTy).Contents (Elt Ideal))
    (W1 : (⟨S128x128, .f32⟩ : BufTy).Contents (Elt Ideal)) (b1 g1 bt1 : (⟨S128, .f32⟩ : BufTy).Contents (Elt Ideal))
    (W2 : (⟨S128x128, .f32⟩ : BufTy).Contents (Elt Ideal)) (b2 g2 bt2 : (⟨S128, .f32⟩ : BufTy).Contents (Elt Ideal))
    (Wl1 : (⟨S256x256, .f32⟩ : BufTy).Contents (Elt Ideal)) (bl1 : (⟨S256, .f32⟩ : BufTy).Contents (Elt Ideal))
    (Wl2 : (⟨S128x256, .f32⟩ : BufTy).Contents (Elt Ideal)) (bl2 : (⟨S128, .f32⟩ : BufTy).Contents (Elt Ideal)) :
    val_main_v100 (F := Ideal) X EI W1 b1 g1 bt1 W2 b2 g2 bt2 Wl1 bl1 Wl2 bl2
      = Cert.RowMath.nodes X (val_main_v13 (F := Ideal) X EI) (val_main_v55 (F := Ideal) X EI)
          W1 b1 g1 bt1 W2 b2 g2 bt2 Wl1 bl1 Wl2 bl2 := by
  funext i
  obtain ⟨p, q, rfl⟩ : ∃ (p : Fin 100000) (q : Fin 128), i = ix2 p q := ⟨i 0, i 1, eq_ix2 i⟩
  have h94 : (fun s => val_main_v94 (F := Ideal) X EI W1 b1 g1 bt1 W2 b2 g2 bt2 Wl1 bl1 (ix2 p s))
      = fun s => max (Cert.RowMath.affine (fun k n => Wl1 (ix2 n k)) (fun n => bl1 (ix1 n))
          (fun r => val_main_v88 (F := Ideal) X EI W1 b1 g1 bt1 W2 b2 g2 bt2 (ix2 p r)) s) 0 :=
    funext fun s => v94_eq X EI W1 b1 g1 bt1 W2 b2 g2 bt2 Wl1 bl1 p s
  have h88 : (fun r => val_main_v88 (F := Ideal) X EI W1 b1 g1 bt1 W2 b2 g2 bt2 (ix2 p r))
      = Cert.RowMath.cat (fun k => val_main_v45 (F := Ideal) X EI W1 b1 g1 bt1 (ix2 p k))
          (fun k => val_main_v87 (F := Ideal) X EI W2 b2 g2 bt2 (ix2 p k)) :=
    funext fun r => v88_eq X EI W1 b1 g1 bt1 W2 b2 g2 bt2 p r
  have h45 : (fun k => val_main_v45 (F := Ideal) X EI W1 b1 g1 bt1 (ix2 p k))
      = Cert.RowMath.branch (fun k n => W1 (ix2 n k)) (fun n => b1 (ix1 n)) (fun n => g1 (ix1 n)) (fun n => bt1 (ix1 n))
          (fun k => val_main_v14 (F := Ideal) X EI (ix2 p k)) :=
    funext fun k => v45_eq X EI W1 b1 g1 bt1 p k
  have h87 : (fun k => val_main_v87 (F := Ideal) X EI W2 b2 g2 bt2 (ix2 p k))
      = Cert.RowMath.branch (fun k n => W2 (ix2 n k)) (fun n => b2 (ix1 n)) (fun n => g2 (ix1 n)) (fun n => bt2 (ix1 n))
          (fun k => val_main_v56 (F := Ideal) X EI (ix2 p k)) :=
    funext fun k => v87_eq X EI W2 b2 g2 bt2 p k
  have h14 : (fun k : Fin 128 => val_main_v14 (F := Ideal) X EI (ix2 p k))
      = fun k => X (ix2 p k) + val_main_v13 (F := Ideal) X EI (ix2 p k) := rfl
  have h56 : (fun k : Fin 128 => val_main_v56 (F := Ideal) X EI (ix2 p k))
      = fun k => X (ix2 p k) + val_main_v55 (F := Ideal) X EI (ix2 p k) := rfl
  rw [v100_eq, h94, h88, h45, h87, h14, h56]
  rfl

end Cert.ReferenceIdeal.RefRow

end
-- ==== Proof.lean ====
/-
  A graph-network layer on 100000 nodes with 128 features: the fused kernel against its reference, over the extended reals.

  Both programs first form, on the host and by the same operations, the two edge aggregates (the feature rows gathered along
  the 1.6 million edges and scatter-added at the other endpoint, once per direction). From there each node's new row is
  `RowMath.out` of its own feature row and its two aggregate rows: two residual branches
  `h + max(LayerNorm(h · Wᵀ + b) · g + β, 0)` with `h = x + agg`, joined side by side and passed through two affine layers each
  followed by `max(·, 0)`.

  The reference applies these layers to whole [100000, 128] arrays (Proof/RefRow.lean: its result is `RowMath.nodes`). The
  kernel pads the three row operands to 100352 rows, runs the fused body on 98 blocks of 1024 rows (Proof/BlockRow.lean: a
  stored block's entry is `RowMath.out` of the block's row; Proof/NodeBlocks.lean: the blocks tile the output) and keeps the
  first 100000 rows (Proof/KeptRows.lean: those are `RowMath.nodes` of the same arrays). At the exact values a change of
  float format is the identity and a matrix product into a zero accumulator is the plain sum, so the two results are one
  function of the arguments; no law beyond reading both programs row by row is used, and the precondition is not needed.

  The three frames are the generated ones (the reference's: its generated run with the result dropped); the idealization
  rewrote nothing, so `preserves` is trivial.
-/
import proofs.«150959_j60120952209623_1_alg».proof.Defs
import proofs.«150959_j60120952209623_1_alg».proof.Proof.Gen.Kernel
import proofs.«150959_j60120952209623_1_alg».proof.Proof.Gen.Kernel.Skeleton
import proofs.«150959_j60120952209623_1_alg».proof.Proof.Gen.Kernel.Launch
import proofs.«150959_j60120952209623_1_alg».proof.Proof.Gen.Kernel.Points
import proofs.«150959_j60120952209623_1_alg».proof.Proof.Gen.Kernel.Frame
import proofs.«150959_j60120952209623_1_alg».proof.Proof.Gen.KernelIdeal
import proofs.«150959_j60120952209623_1_alg».proof.Proof.Gen.KernelIdeal.Skeleton
import proofs.«150959_j60120952209623_1_alg».proof.Proof.Gen.KernelIdeal.Launch
import proofs.«150959_j60120952209623_1_alg».proof.Proof.Gen.KernelIdeal.Points
import proofs.«150959_j60120952209623_1_alg».proof.Proof.Gen.KernelIdeal.Frame
import proofs.«150959_j60120952209623_1_alg».proof.Proof.Gen.ReferenceIdeal
import proofs.«150959_j60120952209623_1_alg».proof.Proof.Gen.ReferenceIdeal.Run
import proofs.«150959_j60120952209623_1_alg».proof.Proof.Gen.ReferenceIdeal.Read
import proofs.«150959_j60120952209623_1_alg».proof.Proof.Gen.Pre_finite_inputs
import proofs.«150959_j60120952209623_1_alg».proof.Proof.KeptRows
import proofs.«150959_j60120952209623_1_alg».proof.Proof.RefRow
import Idealize.ShloMosaic.Adequacy
import Idealize.ShloMosaic.Init

noncomputable section

namespace Cert.Proof

open Idealize.ShloMosaic Idealize.SL.Sem

/-- The kernel as printed runs, faults nowhere and leaves its arguments: the generated frame. -/
theorem frame_kernel : Cert.frame_Kernel := fun m ρ _ => Cert.Kernel.Gen.frame m ρ

/-- The same of the kernel read at the exact values. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the update of every node: the kernel by its blocks and
    the kept rows, the reference by its stages, both as `RowMath.nodes` of the arguments and the two edge aggregates. -/
theorem algebraic : Cert.algebraic_KernelIdeal_ReferenceIdeal := by
  intro m ρ m' ρ' _ hagree
  refine ⟨fun c => Cert.KernelIdeal.KeptRows.keptNodes m c, Cert.KernelIdeal.KeptRows.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v100_eq, Cert.ReferenceIdeal.RefRow.result_eq,
    e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
